-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 77
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S1x64, .f32⟩
  | .hbm, ⟨76, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S50000x1.size a
  hwx2_4 : ∀ i : grid2.Coords, EltTy.bits .f32 = 32 ∨ (Rect.block (s := S50000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000, .f32⟩
  | 47 => ⟨S50000x1, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S_, .f32⟩
  | 65 => ⟨S50000, .f32⟩
  | 66 => ⟨S50000, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000, .f32⟩
  | 95 => ⟨S50000x1, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S_, .f32⟩
  | 113 => ⟨S50000, .f32⟩
  | 114 => ⟨S50000, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S_, .f32⟩
  | 123 => ⟨S50000, .f32⟩
  | 124 => ⟨S50000, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000, .f32⟩
  | 15 => ⟨S50000x1, .f32⟩
  | 16 => ⟨S50000x128, .f32⟩
  | 17 => ⟨S50000x128, .f32⟩
  | 18 => ⟨S50000x64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_cst_3 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_13 : Ref sig .tc := ⟨.hbm, 81, rfl⟩
abbrev main_v47 : Ref sig .tc := ⟨.hbm, 82, rfl⟩
abbrev main_v48 : Ref sig .tc := ⟨.hbm, 83, rfl⟩
abbrev main_c_14 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_15 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call5_cst : Ref sig .tc := ⟨.hbm, 102, rfl⟩
abbrev main_call5_v0 : Ref sig .tc := ⟨.hbm, 103, rfl⟩
abbrev main_v65 : Ref sig .tc := ⟨.hbm, 104, rfl⟩
abbrev main_cst_16 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_18 : Ref sig .tc := ⟨.hbm, 111, rfl⟩
abbrev main_call6_v0 : Ref sig .tc := ⟨.hbm, 112, rfl⟩
abbrev main_call6_v1 : Ref sig .tc := ⟨.hbm, 113, rfl⟩
abbrev main_v70 : Ref sig .tc := ⟨.hbm, 114, rfl⟩
abbrev main_cst_19 : Ref sig .tc := ⟨.hbm, 115, rfl⟩
abbrev main_v71 : Ref sig .tc := ⟨.hbm, 116, rfl⟩
abbrev main_cst_20 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_21 : Ref sig .tc := ⟨.hbm, 121, rfl⟩
abbrev main_call7_v0 : Ref sig .tc := ⟨.hbm, 122, rfl⟩
abbrev main_call7_v1 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_c_22 : Ref sig .tc := ⟨.hbm, 129, rfl⟩
abbrev main_v80 : Ref sig .tc := ⟨.hbm, 130, rfl⟩
abbrev main_v81 : Ref sig .tc := ⟨.hbm, 131, rfl⟩
abbrev main_c_23 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_24 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_call8_cst : Ref sig .tc := ⟨.hbm, 150, rfl⟩
abbrev main_call8_v0 : Ref sig .tc := ⟨.hbm, 151, rfl⟩
abbrev main_v98 : Ref sig .tc := ⟨.hbm, 152, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelStretches.lean ====
/-
  What @main's host operations leave between the kernel regions, for any float values.

  Before the first region: the two degree counts (ones added at the positions `src`, resp. `dst`, names), clipped below at
  one, their reciprocal square roots, each laid out as a column. Before each later region: one aggregation over the edges of
  the previous region's output (row `e` of the gathered array is row `src e` of it, a negative index read from the end, and
  the gathered rows are added up at the rows `dst e` of a zero array) and the layer's bias laid out as a one-row matrix.
  Nothing else is written: the arguments and the two columns pass through every stretch unchanged.

  These are statements about the host operations alone, so they hold at every float instance; they are proved there,
  where the operations stay closed.
-/
import proofs.«179197_j29257317220561_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretches

open Cert.KernelIdeal Cert.KernelIdeal.Gen

variable {F : FTy → Type} [FloatOps F]

/-- The column of `deg^(-1/2)` for one end of the edges: count each node's occurrences in `idx` by adding ones at
    those positions, take at least one, take the reciprocal square root, and lay the 50000 values out as a column. -/
def invSqrtDegree (idx : (⟨S800000, .i32⟩ : BufTy).Contents (Elt F)) : (⟨S50000x1, .f32⟩ : BufTy).Contents (Elt F) :=
  fun i => shapeCast S50000x1 (Host.rsqrt (F := F) (maximumf (F := F) (broadcastInDim S50000 ![] bcast_S_S50000 (id (constant (F := F) S_ .f32 0x3F800000#32)))
    (Host.scatterAdd (F := F) scatter_S50000_S800000x1_S800000_n_0_0_1 (broadcastInDim S50000 ![] bcast_S_S50000 (constant (F := F) S_ .f32 0x00000000#32))
      (broadcastInDim S800000x1 ![0] bcast_S800000_S800000x1_0 idx) (broadcastInDim S800000 ![] bcast_S_S800000 (constant (F := F) S_ .f32 0x3F800000#32)))))
    shapeCasts_S50000_S50000x1 i

/-- One aggregation over the edges: row `e` of the gathered array is row `src e` of `h` (a negative index read from the
    end), and the gathered rows are added up at the rows `dst e` of a zero array. -/
def aggregate (src dst : (⟨S800000, .i32⟩ : BufTy).Contents (Elt F)) (h : (⟨S50000x128, .f32⟩ : BufTy).Contents (Elt F)) :
    (⟨S50000x128, .f32⟩ : BufTy).Contents (Elt F) :=
  Host.scatterAdd (F := F) scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A 128-entry bias laid out as a one-row matrix. -/
def biasRow128 (b : (⟨S128, .f32⟩ : BufTy).Contents (Elt F)) : (⟨S1x128, .f32⟩ : BufTy).Contents (Elt F) :=
  fun i => shapeCast S1x128 b shapeCasts_S128_S1x128 i

/-- A 64-entry bias laid out as a one-row matrix. -/
def biasRow64 (b : (⟨S64, .f32⟩ : BufTy).Contents (Elt F)) : (⟨S1x64, .f32⟩ : BufTy).Contents (Elt F) :=
  fun i => shapeCast S1x64 b shapeCasts_S64_S1x64 i

variable (m : (ℓ : Loc nD τ sig) → Buf (Elt F) ℓ) (ρ : Dev nD → PrngReg)

/-! ## Before the first region -/

/-- No host operation before the first region writes an argument. -/
theorem entry0_args (c : Dev nD) (b : Ref sig .tc)
    (hb : b ∈ [main_arg0, main_arg1, main_arg2, main_arg3, main_arg4, main_arg5, main_arg6, main_arg7, main_arg8]) :
    W5 m ρ c (Proc.devRef .tc b) = m ((c : Thread nD τ).loc b) := by
  simp only [List.mem_cons, List.not_mem_nil, or_false] at hb
  rcases hb with rfl | rfl | rfl | rfl | rfl | rfl | rfl | rfl | rfl <;>
    (show StableHlo.after hostOps0_4 (StableHlo.after hostOps0_3 (StableHlo.after hostOps0_2 (StableHlo.after hostOps0_1 (StableHlo.after hostOps0 (W0 m ρ c))))) _ = _
     after_results <;> rfl)

/-- The source-degree column as the first region finds it. -/
theorem entry0_srcCol (c : Dev nD) : W5 m ρ c (Proc.devRef .tc main_v10) = invSqrtDegree (m ((c : Thread nD τ).loc main_arg1)) := by
  show StableHlo.after hostOps0_4 (StableHlo.after hostOps0_3 (StableHlo.after hostOps0_2 (StableHlo.after hostOps0_1 (StableHlo.after hostOps0 (W0 m ρ c))))) _ = _
  after_results <;> rfl

/-- The destination-degree column as the first region finds it. -/
theorem entry0_dstCol (c : Dev nD) : W5 m ρ c (Proc.devRef .tc main_v12) = invSqrtDegree (m ((c : Thread nD τ).loc main_arg2)) := by
  show StableHlo.after hostOps0_4 (StableHlo.after hostOps0_3 (StableHlo.after hostOps0_2 (StableHlo.after hostOps0_1 (StableHlo.after hostOps0 (W0 m ρ c))))) _ = _
  after_results <;> rfl

/-! ## The host stretch before the second region -/

/-- The stretch writes none of these buffers. -/
theorem stretch1_keep (c : Dev nD) (b : Ref sig .tc)
    (hb : b ∈ [main_arg1, main_arg2, main_arg3, main_arg5, main_arg6, main_arg7, main_arg8, main_v10, main_v12]) :
    W7 m ρ c (Proc.devRef .tc b) = W6 m ρ c (Proc.devRef .tc b) := by
  simp only [List.mem_cons, List.not_mem_nil, or_false] at hb
  rcases hb with rfl | rfl | rfl | rfl | rfl | rfl | rfl | rfl | rfl <;>
    (show StableHlo.after hostOps1 (W6 m ρ c) _ = _
     after_results <;> rfl)

/-- It aggregates the previous region's output over the edges. -/
theorem stretch1_agg (c : Dev nD) :
    W7 m ρ c (Proc.devRef .tc main_v23)
      = aggregate (W6 m ρ c (Proc.devRef .tc main_arg1)) (W6 m ρ c (Proc.devRef .tc main_arg2)) (W6 m ρ c (Proc.devRef .tc main_v13)) := by
  show StableHlo.after hostOps1 (W6 m ρ c) _ = _
  after_results <;> rfl

/-- And lays the layer's bias out as a row. -/
theorem stretch1_bias (c : Dev nD) :
    W7 m ρ c (Proc.devRef .tc main_v24) = biasRow128 (W6 m ρ c (Proc.devRef .tc main_arg4)) := by
  show StableHlo.after hostOps1 (W6 m ρ c) _ = _
  after_results <;> rfl

/-! ## The host stretch before the third region -/

/-- The stretch writes none of these buffers. -/
theorem stretch2_keep (c : Dev nD) (b : Ref sig .tc)
    (hb : b ∈ [main_arg1, main_arg2, main_arg5, main_arg7, main_arg8, main_v10, main_v12]) :
    W9 m ρ c (Proc.devRef .tc b) = W8 m ρ c (Proc.devRef .tc b) := by
  simp only [List.mem_cons, List.not_mem_nil, or_false] at hb
  rcases hb with rfl | rfl | rfl | rfl | rfl | rfl | rfl <;>
    (show StableHlo.after hostOps2 (W8 m ρ c) _ = _
     after_results <;> rfl)

/-- It aggregates the previous region's output over the edges. -/
theorem stretch2_agg (c : Dev nD) :
    W9 m ρ c (Proc.devRef .tc main_v35)
      = aggregate (W8 m ρ c (Proc.devRef .tc main_arg1)) (W8 m ρ c (Proc.devRef .tc main_arg2)) (W8 m ρ c (Proc.devRef .tc main_v25)) := by
  show StableHlo.after hostOps2 (W8 m ρ c) _ = _
  after_results <;> rfl

/-- And lays the layer's bias out as a row. -/
theorem stretch2_bias (c : Dev nD) :
    W9 m ρ c (Proc.devRef .tc main_v36) = biasRow128 (W8 m ρ c (Proc.devRef .tc main_arg6)) := by
  show StableHlo.after hostOps2 (W8 m ρ c) _ = _
  after_results <;> rfl

/-! ## The host stretch before the fourth region -/

/-- The stretch writes none of these buffers. -/
theorem stretch3_keep (c : Dev nD) (b : Ref sig .tc)
    (hb : b ∈ [main_arg7, main_v12]) :
    W11 m ρ c (Proc.devRef .tc b) = W10 m ρ c (Proc.devRef .tc b) := by
  simp only [List.mem_cons, List.not_mem_nil, or_false] at hb
  rcases hb with rfl | rfl <;>
    (show StableHlo.after hostOps3 (W10 m ρ c) _ = _
     after_results <;> rfl)

/-- It aggregates the previous region's output over the edges. -/
theorem stretch3_agg (c : Dev nD) :
    W11 m ρ c (Proc.devRef .tc main_v47)
      = aggregate (W10 m ρ c (Proc.devRef .tc main_arg1)) (W10 m ρ c (Proc.devRef .tc main_arg2)) (W10 m ρ c (Proc.devRef .tc main_v37)) := by
  show StableHlo.after hostOps3 (W10 m ρ c) _ = _
  after_results <;> rfl

/-- And lays the layer's bias out as a row. -/
theorem stretch3_bias (c : Dev nD) :
    W11 m ρ c (Proc.devRef .tc main_v48) = biasRow64 (W10 m ρ c (Proc.devRef .tc main_arg8)) := by
  show StableHlo.after hostOps3 (W10 m ρ c) _ = _
  after_results <;> rfl

end Cert.KernelIdeal.Stretches

end
-- ==== Proof.GcnSpec.lean ====
/-
  The row-wise maps a graph-convolution layer is made of, written index by index on the extended reals, over the
  literal shapes of this program: 50000 nodes, 128 input features, 128 or 64 output features.

  * `scaleRows x s`: row `r` of `x` multiplied by the one entry of row `r` of the column `s`
    (a degree normalisation: `s` holds `deg^(-1/2)` per node).
  * `affineRelu128 a w b` / `affineRelu64 a w b`: entry `(r, j)` is `max (∑ k, a (r, k) * w (k, j) + b (0, j)) 0`:
    a matrix product with the weights, the bias row added to every row, negative entries cut to the value the
    zero word denotes. The zero is kept as the word both programs write; it is never evaluated.
-/
import Idealize.ShloMosaic.PureOps.Ideal
import Idealize.ShloMosaic.Lib.ValueIdx

noncomputable section

open scoped BigOperators

namespace Cert.GcnSpec

open Idealize.ShloMosaic Idealize.ShloMosaic.ValueIdx

abbrev Nodes128 : Shape := ⟨2, ![50000, 128]⟩
abbrev Nodes64 : Shape := ⟨2, ![50000, 64]⟩
abbrev NodesCol : Shape := ⟨2, ![50000, 1]⟩
abbrev Wt128 : Shape := ⟨2, ![128, 128]⟩
abbrev Wt64 : Shape := ⟨2, ![128, 64]⟩
abbrev Row128 : Shape := ⟨2, ![1, 128]⟩
abbrev Row64 : Shape := ⟨2, ![1, 64]⟩

/-- Row `r` of `x` times the entry `s (r, 0)`. -/
def scaleRows (x : Nodes128.Idx → EReal) (s : NodesCol.Idx → EReal) : Nodes128.Idx → EReal :=
  fun i => x i * s (ix2 (i 0) (0 : Fin 1))

/-- `relu (a · w + b)` into 128 features: entry `(r, j)` is `max (∑ k, a (r, k) * w (k, j) + b (0, j)) 0`. -/
def affineRelu128 (a : Nodes128.Idx → EReal) (w : Wt128.Idx → EReal) (b : Row128.Idx → EReal) : Nodes128.Idx → EReal :=
  fun i => max ((∑ k : Fin 128, a (ix2 (i 0) k) * w (ix2 k (i 1))) + b (ix2 (0 : Fin 1) (i 1))) (Ideal.ofBits .f32 0x00000000#32)

/-- `relu (a · w + b)` into 64 features. -/
def affineRelu64 (a : Nodes128.Idx → EReal) (w : Wt64.Idx → EReal) (b : Row64.Idx → EReal) : Nodes64.Idx → EReal :=
  fun i => max ((∑ k : Fin 128, a (ix2 (i 0) k) * w (ix2 k (i 1))) + b (ix2 (0 : Fin 1) (i 1))) (Ideal.ofBits .f32 0x00000000#32)

theorem scaleRows_apply (x : Nodes128.Idx → EReal) (s : NodesCol.Idx → EReal) (r : Fin 50000) (j : Fin 128) :
    scaleRows x s (ix2 r j) = x (ix2 r j) * s (ix2 r (0 : Fin 1)) := rfl

theorem affineRelu128_apply (a : Nodes128.Idx → EReal) (w : Wt128.Idx → EReal) (b : Row128.Idx → EReal) (r : Fin 50000) (j : Fin 128) :
    affineRelu128 a w b (ix2 r j)
      = max ((∑ k : Fin 128, a (ix2 r k) * w (ix2 k j)) + b (ix2 (0 : Fin 1) j)) (Ideal.ofBits .f32 0x00000000#32) := rfl

theorem affineRelu64_apply (a : Nodes128.Idx → EReal) (w : Wt64.Idx → EReal) (b : Row64.Idx → EReal) (r : Fin 50000) (j : Fin 64) :
    affineRelu64 a w b (ix2 r j)
      = max ((∑ k : Fin 128, a (ix2 r k) * w (ix2 k j)) + b (ix2 (0 : Fin 1) j)) (Ideal.ofBits .f32 0x00000000#32) := rfl

end Cert.GcnSpec

end
-- ==== Proof.RegionPrescale.lean ====
/-
  The first kernel region (the pre-scaling of the node features), as one function of the arrays it finds.

  Grid point `t` (of 10) loads rows `5000 t … 5000 t + 4999` of the feature array and of the degree column, multiplies
  each feature row by its column entry, and writes the block back to the same rows of the output. The ten blocks tile
  the 50000 rows, so after the region the output array is `scaleRows` of the two input arrays.
-/
import proofs.«179197_j29257317220561_1_alg».proof.Proof.Gen.KernelIdeal.Frame
import proofs.«179197_j29257317220561_1_alg».proof.Proof.GcnSpec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Prescale

open Cert.KernelIdeal Cert.KernelIdeal.Gen Cert.GcnSpec

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry `(p, q)` of the block: the feature entry times the row's column entry. -/
theorem payload_apply (x0 : Vec Ideal S5000x128 .f32) (x1 : Vec Ideal S5000x1 .f32) (p : Fin 5000) (q : Fin 128) :
    k0_pay1 x0 x1 (ix2 p q) = x0 (ix2 p q) * x1 (ix2 p (0 : Fin 1)) := by
  unfold k0_pay1
  show x0 (ix2 p q) * broadcastTo S5000x128 (shapeCast S5000x1 x1 shapeCasts_S5000x1_S5000x1) broadcasts_S5000x1_S5000x128 (ix2 p q) = _
  rw [shapeCast_self]
  rw [broadcastTo_apply x1 broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show 0 = if (1 : Nat) = 1 then 0 else _; rw [if_pos rfl])]

/-- Every window of this region sits at block row `t`, block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature block at point `t` is rows `5000 t …` of the feature array. -/
theorem features_block (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := block_index t
  unfold iblk0
  rw [View.read_apply]
  show V c main_arg0 _ = V c main_arg0 i
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The column block at point `t` is rows `5000 t …` of the degree column. -/
theorem column_block (c : Dev nD) (t : Fin cfg0.N) (y : S5000x1.Idx) (i : S50000x1.Idx)
    (h0 : (i 0).val = t.val * 5000 + (y 0).val) (h1 : (i 1).val = (y 1).val) :
    (iblk0 V c 1 t : Vec Ideal S5000x1 .f32) y = (V c main_v10 : S50000x1.Idx → EReal) i := by
  obtain ⟨-, -, e0, e1, -⟩ := block_index t
  unfold iblk0
  rw [View.read_apply]
  show V c main_v10 _ = V c main_v10 i
  congr 1
  funext a
  apply Fin.ext
  match a with
  | ⟨0, _⟩ => show win0_1.index t 0 * 5000 + 1 * (y 0).val = (i 0).val; rw [e0, h0]; omega
  | ⟨1, _⟩ => show win0_1.index t 1 * 1 + 1 * (y 1).val = (i 1).val; rw [e1, h1]; omega

/-- What point `t` writes back is block `t` of the scaled feature array. -/
theorem flushed_eq (c : Dev nD) (t : Fin cfg0.N) :
    (dat0 V c).flushed 2 t
      = ((cfg0.win 2).blk t).view.read (Elt Ideal) (scaleRows (V c main_arg0) (V c main_v10)) := by
  show (cfg0.win 2).cut (grid0.coords t) ((dat0 V c).after 2 t) = _
  rw [after0_2]
  unfold out0_2
  rw [View.canon_unit_zero origin]
  simp only [View.ld_unit_zero (S := S5000x128) origin, View.ld_unit_zero (S := S5000x1) origin]
  obtain ⟨-, -, -, -, e0, e1⟩ := block_index t
  funext y
  rw [View.read_apply]
  obtain ⟨p, q, rfl⟩ : ∃ (p : Fin 5000) (q : Fin 128), y = ix2 p q := ⟨y 0, y 1, eq_ix2 y⟩
  have hr : ((((cfg0.win 2).blk t).view.emb (ix2 p q)) 0).val = t.val * 5000 + p.val := by
    show win0_2.index t 0 * 5000 + 1 * p.val = _; rw [e0]; omega
  have hc : ((((cfg0.win 2).blk t).view.emb (ix2 p q)) 1).val = q.val := by
    show win0_2.index t 1 * 128 + 1 * q.val = _; rw [e1]; omega
  refine (payload_apply _ _ p q).trans ?_
  rw [features_block V c t (ix2 p q) (((cfg0.win 2).blk t).view.emb (ix2 p q)) hr hc,
    column_block V c t (ix2 p (0 : Fin 1)) (ix2 ((((cfg0.win 2).blk t).view.emb (ix2 p q)) 0) (0 : Fin 1)) hr rfl]
  rfl

/-- An index of the output array is in point `t`'s block iff each coordinate is in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v13).slice (win0_2.rect t)).set ↔ _
  rw [View.set_slice_whole, Rect.mem_set_unit]
  exact Iff.rfl

/-- Every row lies in the block of the point `row / 5000`. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_block]
  obtain ⟨-, -, -, -, e0, e1⟩ := block_index ⟨(i 0).val / 5000, by rw [hN]; omega⟩
  intro a
  match a with
  | ⟨0, _⟩ =>
    show win0_2.index _ 0 * 5000 ≤ (i 0).val ∧ (i 0).val < win0_2.index _ 0 * 5000 + 5000
    rw [e0]; show (i 0).val / 5000 * 5000 ≤ (i 0).val ∧ (i 0).val < (i 0).val / 5000 * 5000 + 5000; omega
  | ⟨1, _⟩ =>
    show win0_2.index _ 1 * 128 ≤ (i 1).val ∧ (i 1).val < win0_2.index _ 1 * 128 + 128
    rw [e1]; omega

/-- After the region the output array is the feature array with each row scaled by its column entry. -/
theorem array_eq (c : Dev nD) :
    (dat0 V c).arrAt 2 cfg0.N = scaleRows (V c main_arg0) (V c main_v10) :=
  (dat0 V c).arrAt_eq_of_cover 2 (scaleRows (V c main_arg0) (V c main_v10)) (fun t _ => flushed_eq V c t) covered

end Cert.KernelIdeal.Prescale

end
-- ==== Proof.Contraction.lean ====
/-
  The kernels' matrix products read at an entry. A block of 5000 rows by 128 features is multiplied with a 128-by-128 (or
  128-by-64) weight matrix into a zero accumulator; on the extended reals entry `(p, j)` of the product is the plain sum
  `∑ k, l (p, k) * r (k, j)` over the one contracted axis, with no rounding and no order left in it.
-/
import proofs.«179197_j29257317220561_1_alg».proof.Proof.Gen.KernelIdeal
import Idealize.ShloMosaic.Lib.ValueIdx
import Idealize.ShloMosaic.PureOps.Ideal.Laws

noncomputable section

open scoped BigOperators
open Idealize.ShloMosaic Idealize.ShloMosaic.ValueIdx

namespace Cert.KernelIdeal.Contraction

open Cert.KernelIdeal Cert.KernelIdeal.Gen

theorem lhs128_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into 128 features, accumulated from zero, at entry `(p, j)`: the sum over the 128 shared
    features of the left row's entry times the right column's entry. -/
theorem matmul128_apply (l : FVec Ideal S5000x128 .bf16) (r : FVec Ideal S128x128 .bf16) (p : Fin 5000) (j : Fin 128) :
    matmul dot_S5000x128_S128x128_S5000x128_1_0_0_1_n_n none l r (constant S5000x128 .f32 0x00000000#32) (ix2 p j)
      = ∑ k : Fin 128, l (ix2 p k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs128_row _ _
    | ⟨1, _⟩ => exact (lhs128_col _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs128_row _ _).trans hk
    | ⟨1, _⟩ => exact rhs128_col _ _)
  rw [el, er]

theorem lhs64_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's matrix product into 64 features, accumulated from zero, at entry `(p, j)`: the sum over the 128 shared
    features of the left row's entry times the right column's entry. -/
theorem matmul64_apply (l : FVec Ideal S5000x128 .bf16) (r : FVec Ideal S128x64 .bf16) (p : Fin 5000) (j : Fin 64) :
    matmul dot_S5000x128_S128x64_S5000x64_1_0_0_1_n_n none l r (constant S5000x64 .f32 0x00000000#32) (ix2 p j)
      = ∑ k : Fin 128, l (ix2 p k) * r (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p j) ((contrEquiv1 dot_S5000x128_S128x64_S5000x64_1_0_0_1_n_n 128 rfl rfl).symm k) = ix2 p k := funext fun a => Fin.ext (by
    match a with
    | ⟨0, _⟩ => exact lhs64_row _ _
    | ⟨1, _⟩ => exact (lhs64_col _ _).trans hk)
  have er : dot_S5000x128_S128x64_S5000x64_1_0_0_1_n_n.rhsIdx (ix2 p j) ((contrEquiv1 dot_S5000x128_S128x64_S5000x64_1_0_0_1_n_n 128 rfl rfl).symm k) = ix2 k j := funext fun a => Fin.ext (by
    match a with
    | ⟨0, _⟩ => exact (rhs64_row _ _).trans hk
    | ⟨1, _⟩ => exact rhs64_col _ _)
  rw [el, er]

end Cert.KernelIdeal.Contraction

end
-- ==== Proof.RegionLayer1.lean ====
/-
  The second kernel region (graph-convolution layer 1 after its aggregation), as one function of the arrays it finds.

  Grid point `t` (of 10) loads rows `5000 t … 5000 t + 4999` of the aggregated features and of the two degree columns,
  the whole weight matrix and the bias row. It scales each aggregated row by its destination-degree entry, multiplies
  with the weights, adds the bias, cuts negative entries to zero, scales each row by its source-degree entry (the
  pre-scaling the next layer's aggregation wants) and writes the block back to the same rows of the output. The ten
  blocks tile the 50000 rows, so after the region the output array is
  `scaleRows (affineRelu128 (scaleRows agg dstCol) W b) srcCol` of the arrays the region found.
-/
import proofs.«179197_j29257317220561_1_alg».proof.Proof.Gen.KernelIdeal.Frame
import proofs.«179197_j29257317220561_1_alg».proof.Proof.GcnSpec
import proofs.«179197_j29257317220561_1_alg».proof.Proof.Contraction
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Layer1

open Cert.KernelIdeal Cert.KernelIdeal.Gen Cert.GcnSpec

variable (V : (c : Dev nD) → (b : Ref sig .tc) → Buf (Elt Ideal) ((c : Thread nD τ).loc b))

theorem origin : (![0, 0] : Fin 2 → Nat) = fun _ => 0 := funext fun a => by fin_cases a <;> rfl

/-- A column block broadcast along the features reads the row's one entry. -/
theorem column_bcast (x : Vec Ideal S5000x1 .f32) (p : Fin 5000) (q : Fin 128) :
    broadcastTo S5000x128 (shapeCast S5000x1 x shapeCasts_S5000x1_S5000x1) broadcasts_S5000x1_S5000x128 (ix2 p q) = x (ix2 p (0 : Fin 1)) := by
  rw [shapeCast_self]
  exact broadcastTo_apply x broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show 0 = if (1 : Nat) = 1 then 0 else _; rw [if_pos rfl])

/-- The bias row broadcast along the rows reads the feature's one entry. -/
theorem row_bcast (x : Vec Ideal S1x128 .f32) (p : Fin 5000) (q : Fin 128) :
    broadcastTo S5000x128 (shapeCast S1x128 x shapeCasts_S1x128_S1x128) broadcasts_S1x128_S5000x128 (ix2 p q) = x (ix2 (0 : Fin 1) q) := by
  rw [shapeCast_self]
  exact broadcastTo_apply x broadcasts_S1x128_S5000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- The body's stored value at entry `(p, q)` of the block. -/
theorem payload_apply (x0 : Vec Ideal S5000x128 .f32) (x1 : Vec Ideal S5000x1 .f32) (x2 : Vec Ideal S128x128 .f32)
    (x3 : Vec Ideal S1x128 .f32) (x4 : Vec Ideal S5000x1 .f32) (p : Fin 5000) (q : Fin 128) :
    k1_pay1 x0 x1 x2 x3 x4 (ix2 p q)
      = max ((∑ k : Fin 128, (x0 (ix2 p k) * x1 (ix2 p (0 : Fin 1))) * x2 (ix2 k q)) + x3 (ix2 (0 : Fin 1) q))
          (Ideal.ofBits .f32 0x00000000#32) * x4 (ix2 p (0 : Fin 1)) := by
  unfold k1_pay1
  show (max (matmul (F := Ideal) dot_S5000x128_S128x128_S5000x128_1_0_0_1_n_n none
        (truncf (F := Ideal) .bf16 (mulf (F := Ideal) (shapeCast S5000x128 x0 shapeCasts_S5000x128_S5000x128)
          (broadcastTo S5000x128 (shapeCast S5000x1 x1 shapeCasts_S5000x1_S5000x1) broadcasts_S5000x1_S5000x128)) bitsLt_bf16_f32)
        (truncf (F := Ideal) .bf16 x2 bitsLt_bf16_f32) (constant (F := Ideal) S5000x128 .f32 0x00000000#32) (ix2 p q)
      + broadcastTo S5000x128 (shapeCast S1x128 x3 shapeCasts_S1x128_S1x128) broadcasts_S1x128_S5000x128 (ix2 p q))
      (Ideal.ofBits .f32 0x00000000#32)
    * broadcastTo S5000x128 (shapeCast S5000x1 x4 shapeCasts_S5000x1_S5000x1) broadcasts_S5000x1_S5000x128 (ix2 p q) : EReal) = _
  rw [Contraction.matmul128_apply, column_bcast, row_bcast]
  refine congrArg (fun s => max (s + x3 (ix2 (0 : Fin 1) q)) (Ideal.ofBits .f32 0x00000000#32) * x4 (ix2 p (0 : Fin 1)))
    (Finset.sum_congr rfl fun k _ => ?_)
  show (shapeCast S5000x128 x0 shapeCasts_S5000x128_S5000x128 (ix2 p k)
      * broadcastTo S5000x128 (shapeCast S5000x1 x1 shapeCasts_S5000x1_S5000x1) broadcasts_S5000x1_S5000x128 (ix2 p k)) * x2 (ix2 k q) = _
  rw [shapeCast_self, column_bcast]

/-- The row-tiled windows sit at block row `t`, block column 0; the weights and the bias at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The aggregated block at point `t` is rows `5000 t …` of the aggregated array. -/
theorem agg_block (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v23 : S50000x128.Idx → EReal) i := by
  obtain ⟨e0, e1, -⟩ := block_index t
  unfold iblk1
  rw [View.read_apply]
  show V c main_v23 _ = V c main_v23 i
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The destination-degree block at point `t` is rows `5000 t …` of that column. -/
theorem dst_block (c : Dev nD) (t : Fin cfg1.N) (y : S5000x1.Idx) (i : S50000x1.Idx)
    (h0 : (i 0).val = t.val * 5000 + (y 0).val) (h1 : (i 1).val = (y 1).val) :
    (iblk1 V c 1 t : Vec Ideal S5000x1 .f32) y = (V c main_v12 : S50000x1.Idx → EReal) i := by
  obtain ⟨-, -, e0, e1, -⟩ := block_index t
  unfold iblk1
  rw [View.read_apply]
  show V c main_v12 _ = V c main_v12 i
  congr 1
  funext a
  apply Fin.ext
  match a with
  | ⟨0, _⟩ => show win1_1.index t 0 * 5000 + 1 * (y 0).val = (i 0).val; rw [e0, h0]; omega
  | ⟨1, _⟩ => show win1_1.index t 1 * 1 + 1 * (y 1).val = (i 1).val; rw [e1, h1]; omega

/-- The weight block at every point is the whole weight matrix. -/
theorem weight_block (c : Dev nD) (t : Fin cfg1.N) (y : S128x128.Idx) (i : S128x128.Idx)
    (h0 : (i 0).val = (y 0).val) (h1 : (i 1).val = (y 1).val) :
    (iblk1 V c 2 t : Vec Ideal S128x128 .f32) y = (V c main_arg3 : S128x128.Idx → EReal) i := by
  obtain ⟨-, -, -, -, e0, e1, -⟩ := block_index t
  unfold iblk1
  rw [View.read_apply]
  show V c main_arg3 _ = V c main_arg3 i
  congr 1
  funext a
  apply Fin.ext
  match a with
  | ⟨0, _⟩ => show win1_2.index t 0 * 128 + 1 * (y 0).val = (i 0).val; rw [e0, h0]; omega
  | ⟨1, _⟩ => show win1_2.index t 1 * 128 + 1 * (y 1).val = (i 1).val; rw [e1, h1]; omega

/-- The bias block at every point is the whole bias row. -/
theorem bias_block (c : Dev nD) (t : Fin cfg1.N) (y : S1x128.Idx) (i : S1x128.Idx)
    (h0 : (i 0).val = (y 0).val) (h1 : (i 1).val = (y 1).val) :
    (iblk1 V c 3 t : Vec Ideal S1x128 .f32) y = (V c main_v24 : S1x128.Idx → EReal) i := by
  obtain ⟨-, -, -, -, -, -, e0, e1, -⟩ := block_index t
  unfold iblk1
  rw [View.read_apply]
  show V c main_v24 _ = V c main_v24 i
  congr 1
  funext a
  apply Fin.ext
  match a with
  | ⟨0, _⟩ => show win1_3.index t 0 * 1 + 1 * (y 0).val = (i 0).val; rw [e0, h0]; omega
  | ⟨1, _⟩ => show win1_3.index t 1 * 128 + 1 * (y 1).val = (i 1).val; rw [e1, h1]; omega

/-- The source-degree block at point `t` is rows `5000 t …` of that column. -/
theorem src_block (c : Dev nD) (t : Fin cfg1.N) (y : S5000x1.Idx) (i : S50000x1.Idx)
    (h0 : (i 0).val = t.val * 5000 + (y 0).val) (h1 : (i 1).val = (y 1).val) :
    (iblk1 V c 4 t : Vec Ideal S5000x1 .f32) y = (V c main_v10 : S50000x1.Idx → EReal) i := by
  obtain ⟨-, -, -, -, -, -, -, -, e0, e1, -⟩ := block_index t
  unfold iblk1
  rw [View.read_apply]
  show V c main_v10 _ = V c main_v10 i
  congr 1
  funext a
  apply Fin.ext
  match a with
  | ⟨0, _⟩ => show win1_4.index t 0 * 5000 + 1 * (y 0).val = (i 0).val; rw [e0, h0]; omega
  | ⟨1, _⟩ => show win1_4.index t 1 * 1 + 1 * (y 1).val = (i 1).val; rw [e1, h1]; omega

/-- What point `t` writes back is block `t` of the layer's output array. -/
theorem flushed_eq (c : Dev nD) (t : Fin cfg1.N) :
    (dat1 V c).flushed 5 t
      = ((cfg1.win 5).blk t).view.read (Elt Ideal)
          (scaleRows (affineRelu128 (scaleRows (V c main_v23) (V c main_v12)) (V c main_arg3) (V c main_v24)) (V c main_v10)) := by
  show (cfg1.win 5).cut (grid1.coords t) ((dat1 V c).after 5 t) = _
  rw [after1_5]
  unfold out1_5
  rw [View.canon_unit_zero origin]
  simp only [View.ld_unit_zero (S := S5000x128) origin, View.ld_unit_zero (S := S5000x1) origin,
    View.ld_unit_zero (S := S128x128) origin, View.ld_unit_zero (S := S1x128) origin]
  obtain ⟨-, -, -, -, -, -, -, -, -, -, e0, e1⟩ := block_index t
  funext y
  rw [View.read_apply]
  obtain ⟨p, q, rfl⟩ : ∃ (p : Fin 5000) (q : Fin 128), y = ix2 p q := ⟨y 0, y 1, eq_ix2 y⟩
  have hr : ((((cfg1.win 5).blk t).view.emb (ix2 p q)) 0).val = t.val * 5000 + p.val := by
    show win1_5.index t 0 * 5000 + 1 * p.val = _; rw [e0]; omega
  have hc : ((((cfg1.win 5).blk t).view.emb (ix2 p q)) 1).val = q.val := by
    show win1_5.index t 1 * 128 + 1 * q.val = _; rw [e1]; omega
  refine (payload_apply _ _ _ _ _ p q).trans ?_
  have a0 : ∀ k : Fin 128, (iblk1 V c 0 t : Vec Ideal S5000x128 .f32) (ix2 p k)
      = (V c main_v23 : S50000x128.Idx → EReal) (ix2 ((((cfg1.win 5).blk t).view.emb (ix2 p q)) 0) k) :=
    fun k => agg_block V c t (ix2 p k) (ix2 ((((cfg1.win 5).blk t).view.emb (ix2 p q)) 0) k) hr rfl
  have a1 : (iblk1 V c 1 t : Vec Ideal S5000x1 .f32) (ix2 p (0 : Fin 1))
      = (V c main_v12 : S50000x1.Idx → EReal) (ix2 ((((cfg1.win 5).blk t).view.emb (ix2 p q)) 0) (0 : Fin 1)) :=
    dst_block V c t (ix2 p (0 : Fin 1)) (ix2 ((((cfg1.win 5).blk t).view.emb (ix2 p q)) 0) (0 : Fin 1)) hr rfl
  have a2 : ∀ k : Fin 128, (iblk1 V c 2 t : Vec Ideal S128x128 .f32) (ix2 k q)
      = (V c main_arg3 : S128x128.Idx → EReal) (ix2 k ((((cfg1.win 5).blk t).view.emb (ix2 p q)) 1)) :=
    fun k => weight_block V c t (ix2 k q) (ix2 k ((((cfg1.win 5).blk t).view.emb (ix2 p q)) 1)) rfl hc
  have a3 : (iblk1 V c 3 t : Vec Ideal S1x128 .f32) (ix2 (0 : Fin 1) q)
      = (V c main_v24 : S1x128.Idx → EReal) (ix2 (0 : Fin 1) ((((cfg1.win 5).blk t).view.emb (ix2 p q)) 1)) :=
    bias_block V c t (ix2 (0 : Fin 1) q) (ix2 (0 : Fin 1) ((((cfg1.win 5).blk t).view.emb (ix2 p q)) 1)) rfl hc
  have a4 : (iblk1 V c 4 t : Vec Ideal S5000x1 .f32) (ix2 p (0 : Fin 1))
      = (V c main_v10 : S50000x1.Idx → EReal) (ix2 ((((cfg1.win 5).blk t).view.emb (ix2 p q)) 0) (0 : Fin 1)) :=
    src_block V c t (ix2 p (0 : Fin 1)) (ix2 ((((cfg1.win 5).blk t).view.emb (ix2 p q)) 0) (0 : Fin 1)) hr rfl
  simp only [a0, a1, a2, a3, a4]
  rfl

/-- An index of the output array is in point `t`'s block iff each coordinate is in the block's range. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Every row lies in the block of the point `row / 5000`. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_block]
  obtain ⟨-, -, -, -, -, -, -, -, -, -, e0, e1⟩ := block_index ⟨(i 0).val / 5000, by rw [hN]; omega⟩
  intro a
  match a with
  | ⟨0, _⟩ =>
    show win1_5.index _ 0 * 5000 ≤ (i 0).val ∧ (i 0).val < win1_5.index _ 0 * 5000 + 5000
    rw [e0]; show (i 0).val / 5000 * 5000 ≤ (i 0).val ∧ (i 0).val < (i 0).val / 5000 * 5000 + 5000; omega
  | ⟨1, _⟩ =>
    show win1_5.index _ 1 * 128 ≤ (i 1).val ∧ (i 1).val < win1_5.index _ 1 * 128 + 128
    rw [e1]; omega

/-- After the region the output array is the layer's function of the arrays the region found. -/
theorem array_eq (c : Dev nD) :
    (dat1 V c).arrAt 5 cfg1.N
      = scaleRows (affineRelu128 (scaleRows (V c main_v23) (V c main_v12)) (V c main_arg3) (V c main_v24)) (V c main_v10) :=
  (dat1 V c).arrAt_eq_of_cover 5 _ (fun t _ => flushed_eq V c t) covered

end Cert.KernelIdeal.Layer1

end
-- ==== Proof.RegionLayer2.lean ====
/-
  The third kernel region (graph-convolution layer 2 after its aggregation), as one function of the arrays it finds.

  Grid point `t` (of 10) loads rows `5000 t … 5000 t + 4999` of the aggregated features and of the two degree columns,
  the whole weight matrix and the bias row. It scales each aggregated row by its destination-degree entry, multiplies
  with the weights, adds the bias, cuts negative entries to zero, scales each row by its source-degree entry (the
  pre-scaling the next layer's aggregation wants) and writes the block back to the same rows of the output. The ten
  blocks tile the 50000 rows, so after the region the output array is
  `scaleRows (affineRelu128 (scaleRows agg dstCol) W b) srcCol` of the arrays the region found.
-/
import proofs.«179197_j29257317220561_1_alg».proof.Proof.Gen.KernelIdeal.Frame
import proofs.«179197_j29257317220561_1_alg».proof.Proof.GcnSpec
import proofs.«179197_j29257317220561_1_alg».proof.Proof.Contraction
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Layer2

open Cert.KernelIdeal Cert.KernelIdeal.Gen Cert.GcnSpec

variable (V : (c : Dev nD) → (b : Ref sig .tc) → Buf (Elt Ideal) ((c : Thread nD τ).loc b))

theorem origin : (![0, 0] : Fin 2 → Nat) = fun _ => 0 := funext fun a => by fin_cases a <;> rfl

/-- A column block broadcast along the features reads the row's one entry. -/
theorem column_bcast (x : Vec Ideal S5000x1 .f32) (p : Fin 5000) (q : Fin 128) :
    broadcastTo S5000x128 (shapeCast S5000x1 x shapeCasts_S5000x1_S5000x1) broadcasts_S5000x1_S5000x128 (ix2 p q) = x (ix2 p (0 : Fin 1)) := by
  rw [shapeCast_self]
  exact broadcastTo_apply x broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show 0 = if (1 : Nat) = 1 then 0 else _; rw [if_pos rfl])

/-- The bias row broadcast along the rows reads the feature's one entry. -/
theorem row_bcast (x : Vec Ideal S1x128 .f32) (p : Fin 5000) (q : Fin 128) :
    broadcastTo S5000x128 (shapeCast S1x128 x shapeCasts_S1x128_S1x128) broadcasts_S1x128_S5000x128 (ix2 p q) = x (ix2 (0 : Fin 1) q) := by
  rw [shapeCast_self]
  exact broadcastTo_apply x broadcasts_S1x128_S5000x128 (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- The body's stored value at entry `(p, q)` of the block. -/
theorem payload_apply (x0 : Vec Ideal S5000x128 .f32) (x1 : Vec Ideal S5000x1 .f32) (x2 : Vec Ideal S128x128 .f32)
    (x3 : Vec Ideal S1x128 .f32) (x4 : Vec Ideal S5000x1 .f32) (p : Fin 5000) (q : Fin 128) :
    k2_pay1 x0 x1 x2 x3 x4 (ix2 p q)
      = max ((∑ k : Fin 128, (x0 (ix2 p k) * x1 (ix2 p (0 : Fin 1))) * x2 (ix2 k q)) + x3 (ix2 (0 : Fin 1) q))
          (Ideal.ofBits .f32 0x00000000#32) * x4 (ix2 p (0 : Fin 1)) := by
  unfold k2_pay1
  show (max (matmul (F := Ideal) dot_S5000x128_S128x128_S5000x128_1_0_0_1_n_n none
        (truncf (F := Ideal) .bf16 (mulf (F := Ideal) (shapeCast S5000x128 x0 shapeCasts_S5000x128_S5000x128)
          (broadcastTo S5000x128 (shapeCast S5000x1 x1 shapeCasts_S5000x1_S5000x1) broadcasts_S5000x1_S5000x128)) bitsLt_bf16_f32)
        (truncf (F := Ideal) .bf16 x2 bitsLt_bf16_f32) (constant (F := Ideal) S5000x128 .f32 0x00000000#32) (ix2 p q)
      + broadcastTo S5000x128 (shapeCast S1x128 x3 shapeCasts_S1x128_S1x128) broadcasts_S1x128_S5000x128 (ix2 p q))
      (Ideal.ofBits .f32 0x00000000#32)
    * broadcastTo S5000x128 (shapeCast S5000x1 x4 shapeCasts_S5000x1_S5000x1) broadcasts_S5000x1_S5000x128 (ix2 p q) : EReal) = _
  rw [Contraction.matmul128_apply, column_bcast, row_bcast]
  refine congrArg (fun s => max (s + x3 (ix2 (0 : Fin 1) q)) (Ideal.ofBits .f32 0x00000000#32) * x4 (ix2 p (0 : Fin 1)))
    (Finset.sum_congr rfl fun k _ => ?_)
  show (shapeCast S5000x128 x0 shapeCasts_S5000x128_S5000x128 (ix2 p k)
      * broadcastTo S5000x128 (shapeCast S5000x1 x1 shapeCasts_S5000x1_S5000x1) broadcasts_S5000x1_S5000x128 (ix2 p k)) * x2 (ix2 k q) = _
  rw [shapeCast_self, column_bcast]

/-- The row-tiled windows sit at block row `t`, block column 0; the weights and the bias at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The aggregated block at point `t` is rows `5000 t …` of the aggregated array. -/
theorem agg_block (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v35 : S50000x128.Idx → EReal) i := by
  obtain ⟨e0, e1, -⟩ := block_index t
  unfold iblk2
  rw [View.read_apply]
  show V c main_v35 _ = V c main_v35 i
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The destination-degree block at point `t` is rows `5000 t …` of that column. -/
theorem dst_block (c : Dev nD) (t : Fin cfg2.N) (y : S5000x1.Idx) (i : S50000x1.Idx)
    (h0 : (i 0).val = t.val * 5000 + (y 0).val) (h1 : (i 1).val = (y 1).val) :
    (iblk2 V c 1 t : Vec Ideal S5000x1 .f32) y = (V c main_v12 : S50000x1.Idx → EReal) i := by
  obtain ⟨-, -, e0, e1, -⟩ := block_index t
  unfold iblk2
  rw [View.read_apply]
  show V c main_v12 _ = V c main_v12 i
  congr 1
  funext a
  apply Fin.ext
  match a with
  | ⟨0, _⟩ => show win2_1.index t 0 * 5000 + 1 * (y 0).val = (i 0).val; rw [e0, h0]; omega
  | ⟨1, _⟩ => show win2_1.index t 1 * 1 + 1 * (y 1).val = (i 1).val; rw [e1, h1]; omega

/-- The weight block at every point is the whole weight matrix. -/
theorem weight_block (c : Dev nD) (t : Fin cfg2.N) (y : S128x128.Idx) (i : S128x128.Idx)
    (h0 : (i 0).val = (y 0).val) (h1 : (i 1).val = (y 1).val) :
    (iblk2 V c 2 t : Vec Ideal S128x128 .f32) y = (V c main_arg5 : S128x128.Idx → EReal) i := by
  obtain ⟨-, -, -, -, e0, e1, -⟩ := block_index t
  unfold iblk2
  rw [View.read_apply]
  show V c main_arg5 _ = V c main_arg5 i
  congr 1
  funext a
  apply Fin.ext
  match a with
  | ⟨0, _⟩ => show win2_2.index t 0 * 128 + 1 * (y 0).val = (i 0).val; rw [e0, h0]; omega
  | ⟨1, _⟩ => show win2_2.index t 1 * 128 + 1 * (y 1).val = (i 1).val; rw [e1, h1]; omega

/-- The bias block at every point is the whole bias row. -/
theorem bias_block (c : Dev nD) (t : Fin cfg2.N) (y : S1x128.Idx) (i : S1x128.Idx)
    (h0 : (i 0).val = (y 0).val) (h1 : (i 1).val = (y 1).val) :
    (iblk2 V c 3 t : Vec Ideal S1x128 .f32) y = (V c main_v36 : S1x128.Idx → EReal) i := by
  obtain ⟨-, -, -, -, -, -, e0, e1, -⟩ := block_index t
  unfold iblk2
  rw [View.read_apply]
  show V c main_v36 _ = V c main_v36 i
  congr 1
  funext a
  apply Fin.ext
  match a with
  | ⟨0, _⟩ => show win2_3.index t 0 * 1 + 1 * (y 0).val = (i 0).val; rw [e0, h0]; omega
  | ⟨1, _⟩ => show win2_3.index t 1 * 128 + 1 * (y 1).val = (i 1).val; rw [e1, h1]; omega

/-- The source-degree block at point `t` is rows `5000 t …` of that column. -/
theorem src_block (c : Dev nD) (t : Fin cfg2.N) (y : S5000x1.Idx) (i : S50000x1.Idx)
    (h0 : (i 0).val = t.val * 5000 + (y 0).val) (h1 : (i 1).val = (y 1).val) :
    (iblk2 V c 4 t : Vec Ideal S5000x1 .f32) y = (V c main_v10 : S50000x1.Idx → EReal) i := by
  obtain ⟨-, -, -, -, -, -, -, -, e0, e1, -⟩ := block_index t
  unfold iblk2
  rw [View.read_apply]
  show V c main_v10 _ = V c main_v10 i
  congr 1
  funext a
  apply Fin.ext
  match a with
  | ⟨0, _⟩ => show win2_4.index t 0 * 5000 + 1 * (y 0).val = (i 0).val; rw [e0, h0]; omega
  | ⟨1, _⟩ => show win2_4.index t 1 * 1 + 1 * (y 1).val = (i 1).val; rw [e1, h1]; omega

/-- What point `t` writes back is block `t` of the layer's output array. -/
theorem flushed_eq (c : Dev nD) (t : Fin cfg2.N) :
    (dat2 V c).flushed 5 t
      = ((cfg2.win 5).blk t).view.read (Elt Ideal)
          (scaleRows (affineRelu128 (scaleRows (V c main_v35) (V c main_v12)) (V c main_arg5) (V c main_v36)) (V c main_v10)) := by
  show (cfg2.win 5).cut (grid2.coords t) ((dat2 V c).after 5 t) = _
  rw [after2_5]
  unfold out2_5
  rw [View.canon_unit_zero origin]
  simp only [View.ld_unit_zero (S := S5000x128) origin, View.ld_unit_zero (S := S5000x1) origin,
    View.ld_unit_zero (S := S128x128) origin, View.ld_unit_zero (S := S1x128) origin]
  obtain ⟨-, -, -, -, -, -, -, -, -, -, e0, e1⟩ := block_index t
  funext y
  rw [View.read_apply]
  obtain ⟨p, q, rfl⟩ : ∃ (p : Fin 5000) (q : Fin 128), y = ix2 p q := ⟨y 0, y 1, eq_ix2 y⟩
  have hr : ((((cfg2.win 5).blk t).view.emb (ix2 p q)) 0).val = t.val * 5000 + p.val := by
    show win2_5.index t 0 * 5000 + 1 * p.val = _; rw [e0]; omega
  have hc : ((((cfg2.win 5).blk t).view.emb (ix2 p q)) 1).val = q.val := by
    show win2_5.index t 1 * 128 + 1 * q.val = _; rw [e1]; omega
  refine (payload_apply _ _ _ _ _ p q).trans ?_
  have a0 : ∀ k : Fin 128, (iblk2 V c 0 t : Vec Ideal S5000x128 .f32) (ix2 p k)
      = (V c main_v35 : S50000x128.Idx → EReal) (ix2 ((((cfg2.win 5).blk t).view.emb (ix2 p q)) 0) k) :=
    fun k => agg_block V c t (ix2 p k) (ix2 ((((cfg2.win 5).blk t).view.emb (ix2 p q)) 0) k) hr rfl
  have a1 : (iblk2 V c 1 t : Vec Ideal S5000x1 .f32) (ix2 p (0 : Fin 1))
      = (V c main_v12 : S50000x1.Idx → EReal) (ix2 ((((cfg2.win 5).blk t).view.emb (ix2 p q)) 0) (0 : Fin 1)) :=
    dst_block V c t (ix2 p (0 : Fin 1)) (ix2 ((((cfg2.win 5).blk t).view.emb (ix2 p q)) 0) (0 : Fin 1)) hr rfl
  have a2 : ∀ k : Fin 128, (iblk2 V c 2 t : Vec Ideal S128x128 .f32) (ix2 k q)
      = (V c main_arg5 : S128x128.Idx → EReal) (ix2 k ((((cfg2.win 5).blk t).view.emb (ix2 p q)) 1)) :=
    fun k => weight_block V c t (ix2 k q) (ix2 k ((((cfg2.win 5).blk t).view.emb (ix2 p q)) 1)) rfl hc
  have a3 : (iblk2 V c 3 t : Vec Ideal S1x128 .f32) (ix2 (0 : Fin 1) q)
      = (V c main_v36 : S1x128.Idx → EReal) (ix2 (0 : Fin 1) ((((cfg2.win 5).blk t).view.emb (ix2 p q)) 1)) :=
    bias_block V c t (ix2 (0 : Fin 1) q) (ix2 (0 : Fin 1) ((((cfg2.win 5).blk t).view.emb (ix2 p q)) 1)) rfl hc
  have a4 : (iblk2 V c 4 t : Vec Ideal S5000x1 .f32) (ix2 p (0 : Fin 1))
      = (V c main_v10 : S50000x1.Idx → EReal) (ix2 ((((cfg2.win 5).blk t).view.emb (ix2 p q)) 0) (0 : Fin 1)) :=
    src_block V c t (ix2 p (0 : Fin 1)) (ix2 ((((cfg2.win 5).blk t).view.emb (ix2 p q)) 0) (0 : Fin 1)) hr rfl
  simp only [a0, a1, a2, a3, a4]
  rfl

/-- An index of the output array is in point `t`'s block iff each coordinate is in the block's range. -/
theorem mem_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v37).slice (win2_5.rect t)).set ↔ _
  rw [View.set_slice_whole, Rect.mem_set_unit]
  exact Iff.rfl

/-- Every row lies in the block of the point `row / 5000`. -/
theorem covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_block]
  obtain ⟨-, -, -, -, -, -, -, -, -, -, e0, e1⟩ := block_index ⟨(i 0).val / 5000, by rw [hN]; omega⟩
  intro a
  match a with
  | ⟨0, _⟩ =>
    show win2_5.index _ 0 * 5000 ≤ (i 0).val ∧ (i 0).val < win2_5.index _ 0 * 5000 + 5000
    rw [e0]; show (i 0).val / 5000 * 5000 ≤ (i 0).val ∧ (i 0).val < (i 0).val / 5000 * 5000 + 5000; omega
  | ⟨1, _⟩ =>
    show win2_5.index _ 1 * 128 ≤ (i 1).val ∧ (i 1).val < win2_5.index _ 1 * 128 + 128
    rw [e1]; omega

/-- After the region the output array is the layer's function of the arrays the region found. -/
theorem array_eq (c : Dev nD) :
    (dat2 V c).arrAt 5 cfg2.N
      = scaleRows (affineRelu128 (scaleRows (V c main_v35) (V c main_v12)) (V c main_arg5) (V c main_v36)) (V c main_v10) :=
  (dat2 V c).arrAt_eq_of_cover 5 _ (fun t _ => flushed_eq V c t) covered

end Cert.KernelIdeal.Layer2

end
-- ==== Proof.RegionLayer3.lean ====
/-
  The fourth kernel region (graph-convolution layer 3 after its aggregation), as one function of the arrays it finds.

  Grid point `t` (of 10) loads rows `5000 t … 5000 t + 4999` of the aggregated features and of the destination-degree
  column, the whole 128-by-64 weight matrix and the bias row. It scales each aggregated row by its degree entry,
  multiplies with the weights, adds the bias, cuts negative entries to zero and writes the block back to the same rows of
  the result. There is no further aggregation, so no trailing scale. The ten blocks tile the 50000 rows, so after the
  region the result array is `affineRelu64 (scaleRows agg dstCol) W b` of the arrays the region found.
-/
import proofs.«179197_j29257317220561_1_alg».proof.Proof.Gen.KernelIdeal.Frame
import proofs.«179197_j29257317220561_1_alg».proof.Proof.GcnSpec
import proofs.«179197_j29257317220561_1_alg».proof.Proof.Contraction
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Layer3

open Cert.KernelIdeal Cert.KernelIdeal.Gen Cert.GcnSpec

variable (V : (c : Dev nD) → (b : Ref sig .tc) → Buf (Elt Ideal) ((c : Thread nD τ).loc b))

theorem origin : (![0, 0] : Fin 2 → Nat) = fun _ => 0 := funext fun a => by fin_cases a <;> rfl

/-- The degree column's block broadcast along the 128 input features reads the row's one entry. -/
theorem column_bcast (x : Vec Ideal S5000x1 .f32) (p : Fin 5000) (k : Fin 128) :
    broadcastTo S5000x128 (shapeCast S5000x1 x shapeCasts_S5000x1_S5000x1) broadcasts_S5000x1_S5000x128 (ix2 p k) = x (ix2 p (0 : Fin 1)) := by
  rw [shapeCast_self]
  exact broadcastTo_apply x broadcasts_S5000x1_S5000x128 (ix2 p k) (ix2 p (0 : Fin 1)) (fun a => by
    match a with
    | ⟨0, _⟩ => show p.val = if (5000 : Nat) = 1 then 0 else p.val; rw [if_neg (by decide)]
    | ⟨1, _⟩ => show 0 = if (1 : Nat) = 1 then 0 else _; rw [if_pos rfl])

/-- The bias row broadcast along the rows reads the output feature's one entry. -/
theorem row_bcast (x : Vec Ideal S1x64 .f32) (p : Fin 5000) (q : Fin 64) :
    broadcastTo S5000x64 (shapeCast S1x64 x shapeCasts_S1x64_S1x64) broadcasts_S1x64_S5000x64 (ix2 p q) = x (ix2 (0 : Fin 1) q) := by
  rw [shapeCast_self]
  exact broadcastTo_apply x broadcasts_S1x64_S5000x64 (ix2 p q) (ix2 (0 : Fin 1) q) (fun a => by
    match a with
    | ⟨0, _⟩ => show 0 = if (1 : Nat) = 1 then 0 else _; rw [if_pos rfl]
    | ⟨1, _⟩ => show q.val = if (64 : Nat) = 1 then 0 else q.val; rw [if_neg (by decide)])

/-- The body's stored value at entry `(p, q)` of the block. -/
theorem payload_apply (x0 : Vec Ideal S5000x128 .f32) (x1 : Vec Ideal S5000x1 .f32) (x2 : Vec Ideal S128x64 .f32)
    (x3 : Vec Ideal S1x64 .f32) (p : Fin 5000) (q : Fin 64) :
    k3_pay1 x0 x1 x2 x3 (ix2 p q)
      = max ((∑ k : Fin 128, (x0 (ix2 p k) * x1 (ix2 p (0 : Fin 1))) * x2 (ix2 k q)) + x3 (ix2 (0 : Fin 1) q))
          (Ideal.ofBits .f32 0x00000000#32) := by
  unfold k3_pay1
  show (max (matmul (F := Ideal) dot_S5000x128_S128x64_S5000x64_1_0_0_1_n_n none
        (truncf (F := Ideal) .bf16 (mulf (F := Ideal) (shapeCast S5000x128 x0 shapeCasts_S5000x128_S5000x128)
          (broadcastTo S5000x128 (shapeCast S5000x1 x1 shapeCasts_S5000x1_S5000x1) broadcasts_S5000x1_S5000x128)) bitsLt_bf16_f32)
        (truncf (F := Ideal) .bf16 x2 bitsLt_bf16_f32) (constant (F := Ideal) S5000x64 .f32 0x00000000#32) (ix2 p q)
      + broadcastTo S5000x64 (shapeCast S1x64 x3 shapeCasts_S1x64_S1x64) broadcasts_S1x64_S5000x64 (ix2 p q))
      (Ideal.ofBits .f32 0x00000000#32) : EReal) = _
  rw [Contraction.matmul64_apply, row_bcast]
  refine congrArg (fun s => max (s + x3 (ix2 (0 : Fin 1) q)) (Ideal.ofBits .f32 0x00000000#32))
    (Finset.sum_congr rfl fun k _ => ?_)
  show (shapeCast S5000x128 x0 shapeCasts_S5000x128_S5000x128 (ix2 p k)
      * broadcastTo S5000x128 (shapeCast S5000x1 x1 shapeCasts_S5000x1_S5000x1) broadcasts_S5000x1_S5000x128 (ix2 p k)) * x2 (ix2 k q) = _
  rw [shapeCast_self, column_bcast]

/-- The row-tiled windows sit at block row `t`, block column 0; the weights and the bias at block (0, 0). -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated block at point `t` is rows `5000 t …` of the aggregated array. -/
theorem agg_block (c : Dev nD) (t : Fin cfg3.N) (y : S5000x128.Idx) (i : S50000x128.Idx)
    (h0 : (i 0).val = t.val * 5000 + (y 0).val) (h1 : (i 1).val = (y 1).val) :
    (iblk3 V c 0 t : Vec Ideal S5000x128 .f32) y = (V c main_v47 : S50000x128.Idx → EReal) i := by
  obtain ⟨e0, e1, -⟩ := block_index t
  unfold iblk3
  rw [View.read_apply]
  show V c main_v47 _ = V c main_v47 i
  congr 1
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The destination-degree block at point `t` is rows `5000 t …` of that column. -/
theorem dst_block (c : Dev nD) (t : Fin cfg3.N) (y : S5000x1.Idx) (i : S50000x1.Idx)
    (h0 : (i 0).val = t.val * 5000 + (y 0).val) (h1 : (i 1).val = (y 1).val) :
    (iblk3 V c 1 t : Vec Ideal S5000x1 .f32) y = (V c main_v12 : S50000x1.Idx → EReal) i := by
  obtain ⟨-, -, e0, e1, -⟩ := block_index t
  unfold iblk3
  rw [View.read_apply]
  show V c main_v12 _ = V c main_v12 i
  congr 1
  funext a
  apply Fin.ext
  match a with
  | ⟨0, _⟩ => show win3_1.index t 0 * 5000 + 1 * (y 0).val = (i 0).val; rw [e0, h0]; omega
  | ⟨1, _⟩ => show win3_1.index t 1 * 1 + 1 * (y 1).val = (i 1).val; rw [e1, h1]; omega

/-- The weight block at every point is the whole weight matrix. -/
theorem weight_block (c : Dev nD) (t : Fin cfg3.N) (y : S128x64.Idx) (i : S128x64.Idx)
    (h0 : (i 0).val = (y 0).val) (h1 : (i 1).val = (y 1).val) :
    (iblk3 V c 2 t : Vec Ideal S128x64 .f32) y = (V c main_arg7 : S128x64.Idx → EReal) i := by
  obtain ⟨-, -, -, -, e0, e1, -⟩ := block_index t
  unfold iblk3
  rw [View.read_apply]
  show V c main_arg7 _ = V c main_arg7 i
  congr 1
  funext a
  apply Fin.ext
  match a with
  | ⟨0, _⟩ => show win3_2.index t 0 * 128 + 1 * (y 0).val = (i 0).val; rw [e0, h0]; omega
  | ⟨1, _⟩ => show win3_2.index t 1 * 64 + 1 * (y 1).val = (i 1).val; rw [e1, h1]; omega

/-- The bias block at every point is the whole bias row. -/
theorem bias_block (c : Dev nD) (t : Fin cfg3.N) (y : S1x64.Idx) (i : S1x64.Idx)
    (h0 : (i 0).val = (y 0).val) (h1 : (i 1).val = (y 1).val) :
    (iblk3 V c 3 t : Vec Ideal S1x64 .f32) y = (V c main_v48 : S1x64.Idx → EReal) i := by
  obtain ⟨-, -, -, -, -, -, e0, e1, -⟩ := block_index t
  unfold iblk3
  rw [View.read_apply]
  show V c main_v48 _ = V c main_v48 i
  congr 1
  funext a
  apply Fin.ext
  match a with
  | ⟨0, _⟩ => show win3_3.index t 0 * 1 + 1 * (y 0).val = (i 0).val; rw [e0, h0]; omega
  | ⟨1, _⟩ => show win3_3.index t 1 * 64 + 1 * (y 1).val = (i 1).val; rw [e1, h1]; omega

/-- What point `t` writes back is block `t` of the layer's result array. -/
theorem flushed_eq (c : Dev nD) (t : Fin cfg3.N) :
    (dat3 V c).flushed 4 t
      = ((cfg3.win 4).blk t).view.read (Elt Ideal)
          (affineRelu64 (scaleRows (V c main_v47) (V c main_v12)) (V c main_arg7) (V c main_v48)) := by
  show (cfg3.win 4).cut (grid3.coords t) ((dat3 V c).after 4 t) = _
  rw [after3_4]
  unfold out3_4
  rw [View.canon_unit_zero origin]
  simp only [View.ld_unit_zero (S := S5000x128) origin, View.ld_unit_zero (S := S5000x1) origin,
    View.ld_unit_zero (S := S128x64) origin, View.ld_unit_zero (S := S1x64) origin]
  obtain ⟨-, -, -, -, -, -, -, -, e0, e1⟩ := block_index t
  funext y
  rw [View.read_apply]
  obtain ⟨p, q, rfl⟩ : ∃ (p : Fin 5000) (q : Fin 64), y = ix2 p q := ⟨y 0, y 1, eq_ix2 y⟩
  have hr : ((((cfg3.win 4).blk t).view.emb (ix2 p q)) 0).val = t.val * 5000 + p.val := by
    show win3_4.index t 0 * 5000 + 1 * p.val = _; rw [e0]; omega
  have hc : ((((cfg3.win 4).blk t).view.emb (ix2 p q)) 1).val = q.val := by
    show win3_4.index t 1 * 64 + 1 * q.val = _; rw [e1]; omega
  refine (payload_apply _ _ _ _ p q).trans ?_
  have a0 : ∀ k : Fin 128, (iblk3 V c 0 t : Vec Ideal S5000x128 .f32) (ix2 p k)
      = (V c main_v47 : S50000x128.Idx → EReal) (ix2 ((((cfg3.win 4).blk t).view.emb (ix2 p q)) 0) k) :=
    fun k => agg_block V c t (ix2 p k) (ix2 ((((cfg3.win 4).blk t).view.emb (ix2 p q)) 0) k) hr rfl
  have a1 : (iblk3 V c 1 t : Vec Ideal S5000x1 .f32) (ix2 p (0 : Fin 1))
      = (V c main_v12 : S50000x1.Idx → EReal) (ix2 ((((cfg3.win 4).blk t).view.emb (ix2 p q)) 0) (0 : Fin 1)) :=
    dst_block V c t (ix2 p (0 : Fin 1)) (ix2 ((((cfg3.win 4).blk t).view.emb (ix2 p q)) 0) (0 : Fin 1)) hr rfl
  have a2 : ∀ k : Fin 128, (iblk3 V c 2 t : Vec Ideal S128x64 .f32) (ix2 k q)
      = (V c main_arg7 : S128x64.Idx → EReal) (ix2 k ((((cfg3.win 4).blk t).view.emb (ix2 p q)) 1)) :=
    fun k => weight_block V c t (ix2 k q) (ix2 k ((((cfg3.win 4).blk t).view.emb (ix2 p q)) 1)) rfl hc
  have a3 : (iblk3 V c 3 t : Vec Ideal S1x64 .f32) (ix2 (0 : Fin 1) q)
      = (V c main_v48 : S1x64.Idx → EReal) (ix2 (0 : Fin 1) ((((cfg3.win 4).blk t).view.emb (ix2 p q)) 1)) :=
    bias_block V c t (ix2 (0 : Fin 1) q) (ix2 (0 : Fin 1) ((((cfg3.win 4).blk t).view.emb (ix2 p q)) 1)) rfl hc
  simp only [a0, a1, a2, a3]
  rfl

/-- An index of the result array is in point `t`'s block iff each coordinate is in the block's range. -/
theorem mem_block (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v49).slice (win3_4.rect t)).set ↔ _
  rw [View.set_slice_whole, Rect.mem_set_unit]
  exact Iff.rfl

/-- Every row lies in the block of the point `row / 5000`. -/
theorem covered (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := N_3
  refine ⟨⟨(i 0).val / 5000, by rw [hN]; omega⟩, flush3_4 _, ?_⟩
  rw [mem_block]
  obtain ⟨-, -, -, -, -, -, -, -, e0, e1⟩ := block_index ⟨(i 0).val / 5000, by rw [hN]; omega⟩
  intro a
  match a with
  | ⟨0, _⟩ =>
    show win3_4.index _ 0 * 5000 ≤ (i 0).val ∧ (i 0).val < win3_4.index _ 0 * 5000 + 5000
    rw [e0]; show (i 0).val / 5000 * 5000 ≤ (i 0).val ∧ (i 0).val < (i 0).val / 5000 * 5000 + 5000; omega
  | ⟨1, _⟩ =>
    show win3_4.index _ 1 * 64 ≤ (i 1).val ∧ (i 1).val < win3_4.index _ 1 * 64 + 64
    rw [e1]; omega

/-- After the region the result array is the layer's function of the arrays the region found. -/
theorem array_eq (c : Dev nD) :
    (dat3 V c).arrAt 4 cfg3.N
      = affineRelu64 (scaleRows (V c main_v47) (V c main_v12)) (V c main_arg7) (V c main_v48) :=
  (dat3 V c).arrAt_eq_of_cover 4 _ (fun t _ => flushed_eq V c t) covered

end Cert.KernelIdeal.Layer3

end
-- ==== Proof.KernelNetwork.lean ====
/-
  The idealized kernel's result as ONE term of its arguments, read off the boundaries between @main's stretches.

  Each kernel region leaves its output array at the function the region modules prove of the arrays it found, and every
  other buffer alone; each host stretch leaves what KernelStretches says. Walking the boundaries from the launch to the
  return gives, with `srcCol` / `dstCol` the `deg^(-1/2)` columns of the two ends of the edges,

    h0  = scaleRows x srcCol
    h1  = scaleRows (affineRelu128 (scaleRows (aggregate h0) dstCol) W1 (row b1)) srcCol
    h2  = scaleRows (affineRelu128 (scaleRows (aggregate h1) dstCol) W2 (row b2)) srcCol
    out = affineRelu64 (scaleRows (aggregate h2) dstCol) W3 (row b3)

  and the result buffer ends at `out`. The counting, gathering and scattering stay the host's own operations: both
  programs apply the same ones, so they are never opened.
-/
import proofs.«179197_j29257317220561_1_alg».proof.Proof.Gen.KernelIdeal.Frame
import proofs.«179197_j29257317220561_1_alg».proof.Proof.KernelRun
import proofs.«179197_j29257317220561_1_alg».proof.Proof.KernelStretches
import proofs.«179197_j29257317220561_1_alg».proof.Proof.GcnSpec
import proofs.«179197_j29257317220561_1_alg».proof.Proof.RegionPrescale
import proofs.«179197_j29257317220561_1_alg».proof.Proof.RegionLayer1
import proofs.«179197_j29257317220561_1_alg».proof.Proof.RegionLayer2
import proofs.«179197_j29257317220561_1_alg».proof.Proof.RegionLayer3
import Idealize.ShloMosaic.PureOps.Ideal

set_option maxRecDepth 16384

noncomputable section

open Idealize.ShloMosaic Idealize.ShloMosaic.TcCoe Idealize.SL.Sem
open Idealize.ShloMosaic.Pipeline (Dat)

namespace Cert.KernelIdeal.Network

open Cert.KernelIdeal Cert.KernelIdeal.Gen Cert.GcnSpec Cert.KernelIdeal.Stretches

variable (m : (ℓ : Loc nD τ sig) → Buf (Elt Ideal) ℓ) (ρ : Dev nD → PrngReg)

/-- The pre-scaled input features. -/
def h0 (c : Dev nD) : S50000x128.Idx → EReal :=
  scaleRows (m ((c : Thread nD τ).loc main_arg0)) (invSqrtDegree (F := Ideal) (m ((c : Thread nD τ).loc main_arg1)))

/-- Layer 1's output, pre-scaled for the next aggregation. -/
def h1 (c : Dev nD) : S50000x128.Idx → EReal :=
  scaleRows (affineRelu128 (scaleRows (aggregate (F := Ideal) (m ((c : Thread nD τ).loc main_arg1)) (m ((c : Thread nD τ).loc main_arg2)) (h0 m c)) (invSqrtDegree (F := Ideal) (m ((c : Thread nD τ).loc main_arg2))))
    (m ((c : Thread nD τ).loc main_arg3)) (biasRow128 (F := Ideal) (m ((c : Thread nD τ).loc main_arg4)))) (invSqrtDegree (F := Ideal) (m ((c : Thread nD τ).loc main_arg1)))

/-- Layer 2's output, pre-scaled for the next aggregation. -/
def h2 (c : Dev nD) : S50000x128.Idx → EReal :=
  scaleRows (affineRelu128 (scaleRows (aggregate (F := Ideal) (m ((c : Thread nD τ).loc main_arg1)) (m ((c : Thread nD τ).loc main_arg2)) (h1 m c)) (invSqrtDegree (F := Ideal) (m ((c : Thread nD τ).loc main_arg2))))
    (m ((c : Thread nD τ).loc main_arg5)) (biasRow128 (F := Ideal) (m ((c : Thread nD τ).loc main_arg6)))) (invSqrtDegree (F := Ideal) (m ((c : Thread nD τ).loc main_arg1)))

/-- Layer 3's output: the network's result. -/
def out (c : Dev nD) : S50000x64.Idx → EReal :=
  affineRelu64 (scaleRows (aggregate (F := Ideal) (m ((c : Thread nD τ).loc main_arg1)) (m ((c : Thread nD τ).loc main_arg2)) (h2 m c)) (invSqrtDegree (F := Ideal) (m ((c : Thread nD τ).loc main_arg2))))
    (m ((c : Thread nD τ).loc main_arg7)) (biasRow64 (F := Ideal) (m ((c : Thread nD τ).loc main_arg8)))

/-! ## After the first region -/

theorem exit0_args (c : Dev nD) (b : Ref sig .tc)
    (hb : b ∈ [main_arg1, main_arg2, main_arg3, main_arg4, main_arg5, main_arg6, main_arg7, main_arg8]) :
    W6 m ρ c (Proc.devRef .tc b) = m ((c : Thread nD τ).loc b) := by
  have h5 := entry0_args m ρ c b (List.mem_cons_of_mem _ hb)
  simp only [List.mem_cons, List.not_mem_nil, or_false] at hb
  rcases hb with rfl | rfl | rfl | rfl | rfl | rfl | rfl | rfl <;>
    exact (W6_of_ne m ρ c _ (by decide)).trans h5

theorem exit0_srcCol (c : Dev nD) : W6 m ρ c (Proc.devRef .tc main_v10) = invSqrtDegree (m ((c : Thread nD τ).loc main_arg1)) :=
  ((W6_arr m ρ c 1).trans (((dat0 (V5 m ρ) c).arrAt_in 1 rfl _).trans (A_eq0 (V5 m ρ) c 1))).trans (entry0_srcCol m ρ c)

theorem exit0_dstCol (c : Dev nD) : W6 m ρ c (Proc.devRef .tc main_v12) = invSqrtDegree (m ((c : Thread nD τ).loc main_arg2)) :=
  (W6_of_ne m ρ c main_v12 (by decide)).trans (entry0_dstCol m ρ c)

/-- The first region leaves the pre-scaled features. -/
theorem exit0_features (c : Dev nD) : W6 m ρ c (Proc.devRef .tc main_v13) = h0 m c := by
  refine (W6_arr m ρ c 2).trans ((Prescale.array_eq (V5 m ρ) c).trans ?_)
  show scaleRows (W5 m ρ c (Proc.devRef .tc main_arg0)) (W5 m ρ c (Proc.devRef .tc main_v10)) = _
  rw [entry0_args m ρ c main_arg0 (by decide), entry0_srcCol]
  rfl

/-! ## Before and after the second region -/

theorem entry1_args (c : Dev nD) (b : Ref sig .tc)
    (hb : b ∈ [main_arg1, main_arg2, main_arg3, main_arg5, main_arg6, main_arg7, main_arg8]) :
    W7 m ρ c (Proc.devRef .tc b) = m ((c : Thread nD τ).loc b) := by
  simp only [List.mem_cons, List.not_mem_nil, or_false] at hb
  rcases hb with rfl | rfl | rfl | rfl | rfl | rfl | rfl <;>
    exact (stretch1_keep m ρ c _ (by decide)).trans (exit0_args m ρ c _ (by decide))

theorem entry1_srcCol (c : Dev nD) : W7 m ρ c (Proc.devRef .tc main_v10) = invSqrtDegree (m ((c : Thread nD τ).loc main_arg1)) :=
  (stretch1_keep m ρ c main_v10 (by decide)).trans (exit0_srcCol m ρ c)

theorem entry1_dstCol (c : Dev nD) : W7 m ρ c (Proc.devRef .tc main_v12) = invSqrtDegree (m ((c : Thread nD τ).loc main_arg2)) :=
  (stretch1_keep m ρ c main_v12 (by decide)).trans (exit0_dstCol m ρ c)

/-- The first aggregation. -/
theorem entry1_agg (c : Dev nD) :
    W7 m ρ c (Proc.devRef .tc main_v23) = aggregate (m ((c : Thread nD τ).loc main_arg1)) (m ((c : Thread nD τ).loc main_arg2)) (h0 m c) := by
  rw [stretch1_agg, exit0_args m ρ c main_arg1 (by decide), exit0_args m ρ c main_arg2 (by decide), exit0_features]

theorem entry1_bias (c : Dev nD) : W7 m ρ c (Proc.devRef .tc main_v24) = biasRow128 (m ((c : Thread nD τ).loc main_arg4)) := by
  rw [stretch1_bias, exit0_args m ρ c main_arg4 (by decide)]

/-- The second region leaves layer 1's output. -/
theorem exit1_features (c : Dev nD) : W8 m ρ c (Proc.devRef .tc main_v25) = h1 m c := by
  refine (W8_arr m ρ c 5).trans ((Layer1.array_eq (V7 m ρ) c).trans ?_)
  show scaleRows (affineRelu128 (scaleRows (W7 m ρ c (Proc.devRef .tc main_v23)) (W7 m ρ c (Proc.devRef .tc main_v12))) (W7 m ρ c (Proc.devRef .tc main_arg3))
    (W7 m ρ c (Proc.devRef .tc main_v24))) (W7 m ρ c (Proc.devRef .tc main_v10)) = _
  rw [entry1_agg, entry1_dstCol, entry1_args m ρ c main_arg3 (by decide), entry1_bias, entry1_srcCol]
  rfl

theorem exit1_args (c : Dev nD) (b : Ref sig .tc)
    (hb : b ∈ [main_arg1, main_arg2, main_arg5, main_arg6, main_arg7, main_arg8]) :
    W8 m ρ c (Proc.devRef .tc b) = m ((c : Thread nD τ).loc b) := by
  simp only [List.mem_cons, List.not_mem_nil, or_false] at hb
  rcases hb with rfl | rfl | rfl | rfl | rfl | rfl <;>
    exact (W8_of_ne m ρ c _ (by decide)).trans (entry1_args m ρ c _ (by decide))

theorem exit1_srcCol (c : Dev nD) : W8 m ρ c (Proc.devRef .tc main_v10) = invSqrtDegree (m ((c : Thread nD τ).loc main_arg1)) :=
  ((W8_arr m ρ c 4).trans (((dat1 (V7 m ρ) c).arrAt_in 4 rfl _).trans (A_eq1 (V7 m ρ) c 4))).trans (entry1_srcCol m ρ c)

theorem exit1_dstCol (c : Dev nD) : W8 m ρ c (Proc.devRef .tc main_v12) = invSqrtDegree (m ((c : Thread nD τ).loc main_arg2)) :=
  ((W8_arr m ρ c 1).trans (((dat1 (V7 m ρ) c).arrAt_in 1 rfl _).trans (A_eq1 (V7 m ρ) c 1))).trans (entry1_dstCol m ρ c)

/-! ## Before and after the third region -/

theorem entry2_args (c : Dev nD) (b : Ref sig .tc)
    (hb : b ∈ [main_arg1, main_arg2, main_arg5, main_arg7, main_arg8]) :
    W9 m ρ c (Proc.devRef .tc b) = m ((c : Thread nD τ).loc b) := by
  simp only [List.mem_cons, List.not_mem_nil, or_false] at hb
  rcases hb with rfl | rfl | rfl | rfl | rfl <;>
    exact (stretch2_keep m ρ c _ (by decide)).trans (exit1_args m ρ c _ (by decide))

theorem entry2_srcCol (c : Dev nD) : W9 m ρ c (Proc.devRef .tc main_v10) = invSqrtDegree (m ((c : Thread nD τ).loc main_arg1)) :=
  (stretch2_keep m ρ c main_v10 (by decide)).trans (exit1_srcCol m ρ c)

theorem entry2_dstCol (c : Dev nD) : W9 m ρ c (Proc.devRef .tc main_v12) = invSqrtDegree (m ((c : Thread nD τ).loc main_arg2)) :=
  (stretch2_keep m ρ c main_v12 (by decide)).trans (exit1_dstCol m ρ c)

/-- The second aggregation. -/
theorem entry2_agg (c : Dev nD) :
    W9 m ρ c (Proc.devRef .tc main_v35) = aggregate (m ((c : Thread nD τ).loc main_arg1)) (m ((c : Thread nD τ).loc main_arg2)) (h1 m c) := by
  rw [stretch2_agg, exit1_args m ρ c main_arg1 (by decide), exit1_args m ρ c main_arg2 (by decide), exit1_features]

theorem entry2_bias (c : Dev nD) : W9 m ρ c (Proc.devRef .tc main_v36) = biasRow128 (m ((c : Thread nD τ).loc main_arg6)) := by
  rw [stretch2_bias, exit1_args m ρ c main_arg6 (by decide)]

/-- The third region leaves layer 2's output. -/
theorem exit2_features (c : Dev nD) : W10 m ρ c (Proc.devRef .tc main_v37) = h2 m c := by
  refine (W10_arr m ρ c 5).trans ((Layer2.array_eq (V9 m ρ) c).trans ?_)
  show scaleRows (affineRelu128 (scaleRows (W9 m ρ c (Proc.devRef .tc main_v35)) (W9 m ρ c (Proc.devRef .tc main_v12))) (W9 m ρ c (Proc.devRef .tc main_arg5))
    (W9 m ρ c (Proc.devRef .tc main_v36))) (W9 m ρ c (Proc.devRef .tc main_v10)) = _
  rw [entry2_agg, entry2_dstCol, entry2_args m ρ c main_arg5 (by decide), entry2_bias, entry2_srcCol]
  rfl

theorem exit2_args (c : Dev nD) (b : Ref sig .tc)
    (hb : b ∈ [main_arg1, main_arg2, main_arg7, main_arg8]) :
    W10 m ρ c (Proc.devRef .tc b) = m ((c : Thread nD τ).loc b) := by
  simp only [List.mem_cons, List.not_mem_nil, or_false] at hb
  rcases hb with rfl | rfl | rfl | rfl <;>
    exact (W10_of_ne m ρ c _ (by decide)).trans (entry2_args m ρ c _ (by decide))

theorem exit2_dstCol (c : Dev nD) : W10 m ρ c (Proc.devRef .tc main_v12) = invSqrtDegree (m ((c : Thread nD τ).loc main_arg2)) :=
  ((W10_arr m ρ c 1).trans (((dat2 (V9 m ρ) c).arrAt_in 1 rfl _).trans (A_eq2 (V9 m ρ) c 1))).trans (entry2_dstCol m ρ c)

/-! ## Before and after the fourth region -/

theorem entry3_weights (c : Dev nD) : W11 m ρ c (Proc.devRef .tc main_arg7) = m ((c : Thread nD τ).loc main_arg7) :=
  (stretch3_keep m ρ c main_arg7 (by decide)).trans (exit2_args m ρ c main_arg7 (by decide))

theorem entry3_dstCol (c : Dev nD) : W11 m ρ c (Proc.devRef .tc main_v12) = invSqrtDegree (m ((c : Thread nD τ).loc main_arg2)) :=
  (stretch3_keep m ρ c main_v12 (by decide)).trans (exit2_dstCol m ρ c)

/-- The third aggregation. -/
theorem entry3_agg (c : Dev nD) :
    W11 m ρ c (Proc.devRef .tc main_v47) = aggregate (m ((c : Thread nD τ).loc main_arg1)) (m ((c : Thread nD τ).loc main_arg2)) (h2 m c) := by
  rw [stretch3_agg, exit2_args m ρ c main_arg1 (by decide), exit2_args m ρ c main_arg2 (by decide), exit2_features]

theorem entry3_bias (c : Dev nD) : W11 m ρ c (Proc.devRef .tc main_v48) = biasRow64 (m ((c : Thread nD τ).loc main_arg8)) := by
  rw [stretch3_bias, exit2_args m ρ c main_arg8 (by decide)]

/-- The fourth region leaves the network's result in the result buffer. -/
theorem result_eq (c : Dev nD) : W12 m ρ c (Proc.devRef .tc main_v49) = out m c := by
  refine (W12_arr m ρ c 4).trans ((Layer3.array_eq (V11 m ρ) c).trans ?_)
  show affineRelu64 (scaleRows (W11 m ρ c (Proc.devRef .tc main_v47)) (W11 m ρ c (Proc.devRef .tc main_v12))) (W11 m ρ c (Proc.devRef .tc main_arg7))
    (W11 m ρ c (Proc.devRef .tc main_v48)) = _
  rw [entry3_agg, entry3_dstCol, entry3_weights, entry3_bias]
  rfl

/-! ## The run, read -/

/-- Every weakly fair execution of the idealized kernel terminates with the result buffer at `out` of the arguments,
    the arguments as launched. -/
theorem run : θ_run defs (onTc (τ := τ) (main (F := Ideal))) ⟨m, fun _ => 0, ρ⟩ (fun r => ∀ c : Dev nD,
      r.2.mem ((c.tc : Thread nD τ).loc main_v49) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named (F := Ideal) m ρ)

end Cert.KernelIdeal.Network

end
-- ==== Proof.ReferenceLayers.lean ====
/-
  The reference's layer, read as the same row-wise maps as the kernel's regions.

  jnp's `x * rsqrt(deg)[:, None]` multiplies by the column broadcast along the features: `scaleRows`. Its
  `relu (agg @ W + b)` is a `dot_general` contracting the 128 features, the bias row broadcast over the rows, and a
  maximum with the zero splat: `affineRelu128` / `affineRelu64`. The product's sum runs over the indices of the contracted
  shape; it is re-indexed by that shape's one coordinate, a number below 128.
-/
import proofs.«179197_j29257317220561_1_alg».proof.Proof.Gen.ReferenceIdeal.Read
import proofs.«179197_j29257317220561_1_alg».proof.Proof.GcnSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.ReferenceIdeal.Layers

open Cert.ReferenceIdeal Cert.ReferenceIdeal.Gen Cert.GcnSpec

/-- Multiplying by a column broadcast along the features scales each row by its column entry. -/
theorem scale_eq (x : FVec Ideal S50000x128 .f32) (s : FVec Ideal S50000x1 .f32) :
    mulf (F := Ideal) x (broadcastInDim S50000x128 ![0, 1] bcast_S50000x1_S50000x128_0_1 s) = scaleRows x s := by
  funext i
  show (x i * broadcastInDim S50000x128 ![0, 1] bcast_S50000x1_S50000x128_0_1 s i : EReal) = x i * s (ix2 (i 0) (0 : Fin 1))
  rw [broadcastInDim_apply _ bcast_S50000x1_S50000x128_0_1 s i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]

/-- The host's matrix product into 128 features at entry `(r, j)`: the sum over the 128 shared features. -/
theorem dot128_apply (a : FVec Ideal S50000x128 .f32) (w : FVec Ideal S128x128 .f32) (r : Fin 50000) (j : Fin 128) :
    Host.dotGeneral (F := Ideal) dot_S50000x128_S128x128_S50000x128_1_0_0_1_n_n none a w (ix2 r j) = ∑ k : Fin 128, a (ix2 r k) * w (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k := funext fun x => Fin.ext (by
    match x with
    | ⟨0, _⟩ => exact Read.lhs_main_v28_0 _ _
    | ⟨1, _⟩ => exact (Read.lhs_main_v28_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j := funext fun x => Fin.ext (by
    match x with
    | ⟨0, _⟩ => exact (Read.rhs_main_v28_0 _ _).trans hk
    | ⟨1, _⟩ => exact Read.rhs_main_v28_1 _ _)
  rw [el, er]

/-- The host's matrix product into 64 features at entry `(r, j)`: the sum over the 128 shared features. -/
theorem dot64_apply (a : FVec Ideal S50000x128 .f32) (w : FVec Ideal S128x64 .f32) (r : Fin 50000) (j : Fin 64) :
    Host.dotGeneral (F := Ideal) dot_S50000x128_S128x64_S50000x64_1_0_0_1_n_n none a w (ix2 r j) = ∑ k : Fin 128, a (ix2 r k) * w (ix2 k j) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r j) ((contrEquiv1 dot_S50000x128_S128x64_S50000x64_1_0_0_1_n_n 128 rfl rfl).symm k) = ix2 r k := funext fun x => Fin.ext (by
    match x with
    | ⟨0, _⟩ => exact Read.lhs_main_v94_0 _ _
    | ⟨1, _⟩ => exact (Read.lhs_main_v94_1 _ _).trans hk)
  have er : dot_S50000x128_S128x64_S50000x64_1_0_0_1_n_n.rhsIdx (ix2 r j) ((contrEquiv1 dot_S50000x128_S128x64_S50000x64_1_0_0_1_n_n 128 rfl rfl).symm k) = ix2 k j := funext fun x => Fin.ext (by
    match x with
    | ⟨0, _⟩ => exact (Read.rhs_main_v94_0 _ _).trans hk
    | ⟨1, _⟩ => exact Read.rhs_main_v94_1 _ _)
  rw [el, er]

/-- The host's `relu (a · w + b)` into 128 features is `affineRelu128`. -/
theorem affine128_eq (a : FVec Ideal S50000x128 .f32) (w : FVec Ideal S128x128 .f32) (b : FVec Ideal S1x128 .f32) :
    maximumf (F := Ideal) (addf (F := Ideal) (Host.dotGeneral (F := Ideal) dot_S50000x128_S128x128_S50000x128_1_0_0_1_n_n none a w)
        (broadcastInDim S50000x128 ![0, 1] bcast_S1x128_S50000x128_0_1 b))
      (broadcastInDim S50000x128 ![] bcast_S_S50000x128 (constant (F := Ideal) S_ .f32 0x00000000#32)) = affineRelu128 a w b := by
  funext i
  obtain ⟨r, j, rfl⟩ : ∃ (r : Fin 50000) (j : Fin 128), i = ix2 r j := ⟨i 0, i 1, eq_ix2 i⟩
  show (max (Host.dotGeneral (F := Ideal) dot_S50000x128_S128x128_S50000x128_1_0_0_1_n_n none a w (ix2 r j) + broadcastInDim S50000x128 ![0, 1] bcast_S1x128_S50000x128_0_1 b (ix2 r j))
      (broadcastInDim S50000x128 ![] bcast_S_S50000x128 (constant (F := Ideal) S_ .f32 0x00000000#32) (ix2 r j)) : EReal)
    = max ((∑ k : Fin 128, a (ix2 r k) * w (ix2 k j)) + b (ix2 (0 : Fin 1) j)) (Ideal.ofBits .f32 0x00000000#32)
  rw [dot128_apply,
    broadcastInDim_apply _ bcast_S1x128_S50000x128_0_1 b (ix2 r j) (ix2 (0 : Fin 1) j) (fun x => match x with
      | ⟨0, _⟩ => by show 0 = if (1 : Nat) = 1 then 0 else r.val; rw [if_pos rfl]
      | ⟨1, _⟩ => by show j.val = if (128 : Nat) = 1 then 0 else j.val; rw [if_neg (by decide)]),
    broadcastInDim_apply _ bcast_S_S50000x128 (constant (F := Ideal) S_ .f32 0x00000000#32) (ix2 r j) (fun x => x.elim0) (fun x => x.elim0)]
  rfl

/-- The host's `relu (a · w + b)` into 64 features is `affineRelu64`. -/
theorem affine64_eq (a : FVec Ideal S50000x128 .f32) (w : FVec Ideal S128x64 .f32) (b : FVec Ideal S1x64 .f32) :
    maximumf (F := Ideal) (addf (F := Ideal) (Host.dotGeneral (F := Ideal) dot_S50000x128_S128x64_S50000x64_1_0_0_1_n_n none a w)
        (broadcastInDim S50000x64 ![0, 1] bcast_S1x64_S50000x64_0_1 b))
      (broadcastInDim S50000x64 ![] bcast_S_S50000x64 (constant (F := Ideal) S_ .f32 0x00000000#32)) = affineRelu64 a w b := by
  funext i
  obtain ⟨r, j, rfl⟩ : ∃ (r : Fin 50000) (j : Fin 64), i = ix2 r j := ⟨i 0, i 1, eq_ix2 i⟩
  show (max (Host.dotGeneral (F := Ideal) dot_S50000x128_S128x64_S50000x64_1_0_0_1_n_n none a w (ix2 r j) + broadcastInDim S50000x64 ![0, 1] bcast_S1x64_S50000x64_0_1 b (ix2 r j))
      (broadcastInDim S50000x64 ![] bcast_S_S50000x64 (constant (F := Ideal) S_ .f32 0x00000000#32) (ix2 r j)) : EReal)
    = max ((∑ k : Fin 128, a (ix2 r k) * w (ix2 k j)) + b (ix2 (0 : Fin 1) j)) (Ideal.ofBits .f32 0x00000000#32)
  rw [dot64_apply,
    broadcastInDim_apply _ bcast_S1x64_S50000x64_0_1 b (ix2 r j) (ix2 (0 : Fin 1) j) (fun x => match x with
      | ⟨0, _⟩ => by show 0 = if (1 : Nat) = 1 then 0 else r.val; rw [if_pos rfl]
      | ⟨1, _⟩ => by show j.val = if (64 : Nat) = 1 then 0 else j.val; rw [if_neg (by decide)]),
    broadcastInDim_apply _ bcast_S_S50000x64 (constant (F := Ideal) S_ .f32 0x00000000#32) (ix2 r j) (fun x => x.elim0) (fun x => x.elim0)]
  rfl

end Cert.ReferenceIdeal.Layers

end
-- ==== Proof.Bridge.lean ====
/-
  The two results are one function of the arguments.

  The reference recomputes the two degree columns in every layer and writes each layer's pre-scaling at the start of the
  next layer; the kernel computes the columns once and fuses the pre-scaling into the end of the previous region. Read
  as `scaleRows` / `affineRelu` / the host's aggregation, both are the same nest
    out = affineRelu64 (scaleRows (aggregate h2) dstCol) W3 b3,   h(l+1) = scaleRows (affineRelu128 (scaleRows (aggregate h(l)) dstCol) W b) srcCol,
  and nothing but the layout of the small operands differs: the kernel reshapes a 50000-vector into a column and a bias into a
  one-row matrix where the reference broadcasts along a new unit axis. Both layouts hold the same entries.
-/
import proofs.«179197_j29257317220561_1_alg».proof.Proof.KernelNetwork
import proofs.«179197_j29257317220561_1_alg».proof.Proof.ReferenceLayers
import proofs.«179197_j29257317220561_1_alg».proof.Proof.Gen.ReferenceIdeal.Run

set_option maxRecDepth 16384

noncomputable section

open Idealize.ShloMosaic Idealize.ShloMosaic.TcCoe Idealize.SL.Sem Idealize.ShloMosaic.ValueIdx

namespace Cert.Proof.Bridge

open Cert.GcnSpec

variable {F : FTy → Type} [FloatOps F]

/-- A 50000-vector reshaped into a column holds, at row `p`, the vector's entry `p`: so does its broadcast along a new
    unit axis. -/
theorem column_eq (r : FVec F Cert.ReferenceIdeal.S50000 .f32) :
    (fun i => shapeCast Cert.KernelIdeal.S50000x1 r Cert.KernelIdeal.Gen.shapeCasts_S50000_S50000x1 i)
      = broadcastInDim Cert.ReferenceIdeal.S50000x1 ![0] Cert.ReferenceIdeal.Gen.bcast_S50000_S50000x1_0 r := by
  funext i
  obtain ⟨p, z, rfl⟩ : ∃ (p : Fin 50000) (z : Fin 1), i = ix2 p z := ⟨i 0, i 1, eq_ix2 i⟩
  have hz : z.val = 0 := by omega
  rw [shapeCast_apply r Cert.KernelIdeal.Gen.shapeCasts_S50000_S50000x1 (ix2 p z) (ix1 p) (by
      rw [Shape.rowMajor_val_one, Shape.rowMajor_val_two]; show p.val = p.val * 1 + z.val; omega),
    broadcastInDim_apply _ Cert.ReferenceIdeal.Gen.bcast_S50000_S50000x1_0 r (ix2 p z) (ix1 p) (fun a => match a with
      | ⟨0, _⟩ => by show p.val = if (50000 : Nat) = 1 then 0 else p.val; rw [if_neg (by decide)])]

/-- A 128-entry bias reshaped into a one-row matrix holds, at column `q`, the bias's entry `q`: so does its broadcast. -/
theorem row128_eq (b : FVec F Cert.ReferenceIdeal.S128 .f32) :
    (fun i => shapeCast Cert.KernelIdeal.S1x128 b Cert.KernelIdeal.Gen.shapeCasts_S128_S1x128 i)
      = broadcastInDim Cert.ReferenceIdeal.S1x128 ![1] Cert.ReferenceIdeal.Gen.bcast_S128_S1x128_1 b := by
  funext i
  obtain ⟨z, q, rfl⟩ : ∃ (z : Fin 1) (q : Fin 128), i = ix2 z q := ⟨i 0, i 1, eq_ix2 i⟩
  have hz : z.val = 0 := by omega
  rw [shapeCast_apply b Cert.KernelIdeal.Gen.shapeCasts_S128_S1x128 (ix2 z q) (ix1 q) (by
      rw [Shape.rowMajor_val_one, Shape.rowMajor_val_two]; show q.val = z.val * 128 + q.val; omega),
    broadcastInDim_apply _ Cert.ReferenceIdeal.Gen.bcast_S128_S1x128_1 b (ix2 z q) (ix1 q) (fun a => match a with
      | ⟨0, _⟩ => by show q.val = if (128 : Nat) = 1 then 0 else q.val; rw [if_neg (by decide)])]

/-- The same for the 64-entry bias. -/
theorem row64_eq (b : FVec F Cert.ReferenceIdeal.S64 .f32) :
    (fun i => shapeCast Cert.KernelIdeal.S1x64 b Cert.KernelIdeal.Gen.shapeCasts_S64_S1x64 i)
      = broadcastInDim Cert.ReferenceIdeal.S1x64 ![1] Cert.ReferenceIdeal.Gen.bcast_S64_S1x64_1 b := by
  funext i
  obtain ⟨z, q, rfl⟩ : ∃ (z : Fin 1) (q : Fin 64), i = ix2 z q := ⟨i 0, i 1, eq_ix2 i⟩
  have hz : z.val = 0 := by omega
  rw [shapeCast_apply b Cert.KernelIdeal.Gen.shapeCasts_S64_S1x64 (ix2 z q) (ix1 q) (by
      rw [Shape.rowMajor_val_one, Shape.rowMajor_val_two]; show q.val = z.val * 64 + q.val; omega),
    broadcastInDim_apply _ Cert.ReferenceIdeal.Gen.bcast_S64_S1x64_1 b (ix2 z q) (ix1 q) (fun a => match a with
      | ⟨0, _⟩ => by show q.val = if (64 : Nat) = 1 then 0 else q.val; rw [if_neg (by decide)])]

/-- The kernel's degree column is the reference's: the same count, clip and reciprocal square root, laid out either way. -/
theorem invSqrtDegree_eq (idx : (⟨Cert.ReferenceIdeal.S800000, .i32⟩ : BufTy).Contents (Elt F)) :
    Cert.KernelIdeal.Stretches.invSqrtDegree (F := F) idx
      = broadcastInDim Cert.ReferenceIdeal.S50000x1 ![0] Cert.ReferenceIdeal.Gen.bcast_S50000_S50000x1_0
          (Host.rsqrt (F := F) (maximumf (F := F) (broadcastInDim Cert.ReferenceIdeal.S50000 ![] Cert.ReferenceIdeal.Gen.bcast_S_S50000 (id (constant (F := F) Cert.ReferenceIdeal.S_ .f32 0x3F800000#32)))
            (Host.scatterAdd (F := F) Cert.ReferenceIdeal.scatter_S50000_S800000x1_S800000_n_0_0_1
              (broadcastInDim Cert.ReferenceIdeal.S50000 ![] Cert.ReferenceIdeal.Gen.bcast_S_S50000 (constant (F := F) Cert.ReferenceIdeal.S_ .f32 0x00000000#32))
              (broadcastInDim Cert.ReferenceIdeal.S800000x1 ![0] Cert.ReferenceIdeal.Gen.bcast_S800000_S800000x1_0 idx)
              (broadcastInDim Cert.ReferenceIdeal.S800000 ![] Cert.ReferenceIdeal.Gen.bcast_S_S800000 (constant (F := F) Cert.ReferenceIdeal.S_ .f32 0x3F800000#32))))) :=
  column_eq _

theorem biasRow128_eq (b : (⟨Cert.ReferenceIdeal.S128, .f32⟩ : BufTy).Contents (Elt F)) :
    Cert.KernelIdeal.Stretches.biasRow128 (F := F) b = broadcastInDim Cert.ReferenceIdeal.S1x128 ![1] Cert.ReferenceIdeal.Gen.bcast_S128_S1x128_1 b := row128_eq b

theorem biasRow64_eq (b : (⟨Cert.ReferenceIdeal.S64, .f32⟩ : BufTy).Contents (Elt F)) :
    Cert.KernelIdeal.Stretches.biasRow64 (F := F) b = broadcastInDim Cert.ReferenceIdeal.S1x64 ![1] Cert.ReferenceIdeal.Gen.bcast_S64_S1x64_1 b := row64_eq b

/-- The kernel's aggregation is the reference's: the same gather at `src` and scatter-add at `dst`. -/
theorem aggregate_eq (src dst : (⟨Cert.ReferenceIdeal.S800000, .i32⟩ : BufTy).Contents (Elt F)) (h : (⟨Cert.ReferenceIdeal.S50000x128, .f32⟩ : BufTy).Contents (Elt F)) :
    Cert.KernelIdeal.Stretches.aggregate (F := F) src dst h
      = Host.scatterAdd (F := F) Cert.ReferenceIdeal.scatter_S50000x128_S800000x1_S800000x128_1_0_0_1
          (broadcastInDim Cert.ReferenceIdeal.S50000x128 ![] Cert.ReferenceIdeal.Gen.bcast_S_S50000x128 (constant (F := F) Cert.ReferenceIdeal.S_ .f32 0x00000000#32))
          (broadcastInDim Cert.ReferenceIdeal.S800000x1 ![0] Cert.ReferenceIdeal.Gen.bcast_S800000_S800000x1_0 dst)
          (Host.gather Cert.ReferenceIdeal.gather_S50000x128_S800000x1_S800000x128_1_0_n_n_0_1_1128 h
            (broadcastInDim Cert.ReferenceIdeal.S800000x1 ![0] Cert.ReferenceIdeal.Gen.bcast_S800000_S800000x1_0
              (select (cmpi .slt src (broadcastInDim Cert.ReferenceIdeal.S800000 ![] Cert.ReferenceIdeal.Gen.bcast_S_S800000 (constantI Cert.ReferenceIdeal.S_ 32 0#32)))
                (addi src (broadcastInDim Cert.ReferenceIdeal.S800000 ![] Cert.ReferenceIdeal.Gen.bcast_S_S800000 (constantI Cert.ReferenceIdeal.S_ 32 50000#32))) src))) := rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference run's result term is the kernel's `out` of arguments that agree. -/
theorem result_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v98 (F := Ideal) m' c = Cert.KernelIdeal.Network.out m c := by
  unfold Cert.ReferenceIdeal.Value.res_main_v98
  rw [h0, h1, h2, h3, h4, h5, h6, h7, h8]
  repeat rw [Cert.ReferenceIdeal.Layers.scale_eq]
  repeat rw [Cert.ReferenceIdeal.Layers.affine128_eq]
  rw [Cert.ReferenceIdeal.Layers.affine64_eq]
  unfold Cert.KernelIdeal.Network.out Cert.KernelIdeal.Network.h2 Cert.KernelIdeal.Network.h1 Cert.KernelIdeal.Network.h0
  repeat rw [aggregate_eq (F := Ideal)]
  repeat rw [invSqrtDegree_eq (F := Ideal)]
  repeat rw [biasRow128_eq (F := Ideal)]
  rw [biasRow64_eq (F := Ideal)]

end Cert.Proof.Bridge

end
-- ==== Proof.lean ====
/-
  A three-layer graph convolution (DGL `GraphConv`, `norm = 'both'`) on 50000 nodes and 800000 edges, features
  128 → 128 → 128 → 64: the kernel against its jnp reference, over the extended reals.

  Both programs compute, per layer,   relu (D_dst^(-1/2) · A · (D_src^(-1/2) · h) · W + b),
  with `A` the aggregation over the edges (gather the rows at `src`, add them at `dst`) and the degrees clipped at 1.
  The reference does all of it on the host. The kernel leaves the degree counts, the gather and the scatter-add to the
  host too, with the very same operations, and runs the dense part in four row-tiled regions: one that pre-scales the
  input by `D_src^(-1/2)`, and one per layer that applies `D_dst^(-1/2)`, the weights, the bias and the relu, the first two
  also fusing the next layer's pre-scaling. A tile holds 5000 whole rows, so the 128-term contraction of a row with the
  weights is never split: each result entry is the same sum on both sides, and no law of the extended reals beyond
  reading the operations entry by entry is used. The precondition (finite inputs) is not needed.

  * the frames of the two kernel programs are the generated ones; the reference's is its generated run;
  * the idealization rewrote nothing, so `preserves` is trivial;
  * `algebraic`: the kernel's result is `Network.out` of its arguments (KernelNetwork), and so is the reference's
    run term at arguments that agree (Bridge).
-/
import proofs.«179197_j29257317220561_1_alg».proof.Defs
import proofs.«179197_j29257317220561_1_alg».proof.Proof.Gen.Kernel
import proofs.«179197_j29257317220561_1_alg».proof.Proof.Gen.Kernel.Skeleton
import proofs.«179197_j29257317220561_1_alg».proof.Proof.Gen.Kernel.Launch
import proofs.«179197_j29257317220561_1_alg».proof.Proof.Gen.Kernel.Points
import proofs.«179197_j29257317220561_1_alg».proof.Proof.Gen.Kernel.Frame
import proofs.«179197_j29257317220561_1_alg».proof.Proof.Gen.KernelIdeal
import proofs.«179197_j29257317220561_1_alg».proof.Proof.Gen.KernelIdeal.Skeleton
import proofs.«179197_j29257317220561_1_alg».proof.Proof.Gen.KernelIdeal.Launch
import proofs.«179197_j29257317220561_1_alg».proof.Proof.Gen.KernelIdeal.Points
import proofs.«179197_j29257317220561_1_alg».proof.Proof.Gen.KernelIdeal.Frame
import proofs.«179197_j29257317220561_1_alg».proof.Proof.Gen.ReferenceIdeal
import proofs.«179197_j29257317220561_1_alg».proof.Proof.Gen.Pre_finite_inputs
import proofs.«179197_j29257317220561_1_alg».proof.Proof.Gen.ReferenceIdeal.Run
import proofs.«179197_j29257317220561_1_alg».proof.Proof.Gen.ReferenceIdeal.Read
import proofs.«179197_j29257317220561_1_alg».proof.Proof.KernelNetwork
import proofs.«179197_j29257317220561_1_alg».proof.Proof.Bridge
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result at the network's output. -/
theorem algebraic : Cert.algebraic_KernelIdeal_ReferenceIdeal := by
  intro m ρ m' ρ' _ hagree
  refine ⟨fun c => Cert.KernelIdeal.Network.out m c, Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact Cert.Proof.Bridge.result_eq m m' c h0 h1 h2 h3 h4 h5 h6 h7 h8

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
